-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000x128 : Shape := ⟨2, ![500000, 128]⟩
abbrev S2x500000 : Shape := ⟨2, ![2, 500000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x500000 : S_.BroadcastsInDim S2x500000 (![] : Fin 0 → Fin S2x500000.rank)
  reducesTo_S2x500000_S_d0_1 : S2x500000.ReducesTo [0, 1] S_

variable [Facts]

def fn_part3 {F : FTy → Type} [FloatOps F] (main_arg2 : IVec S2x500000 32) (main_v48 : IVec S_ 1) (main_v50 : IVec S2x500000 1) : IVec S_ 1 :=
  let main_c_19 : IVec S_ 1 := constantI S_ 1 1#1
  let main_v51 : IVec S_ 1 := (fun x v => Host.reduce IntOp.andi x v reducesTo_S2x500000_S_d0_1 h_S_) main_v50 main_c_19
  let main_v52 : IVec S_ 1 := andi main_v48 main_v51
  let main_c_20 : IVec S_ 32 := constantI S_ 32 50000#32
  let main_v53 : IVec S2x500000 32 := broadcastInDim S2x500000 ![] bcast_S_S2x500000 main_c_20
  let main_v54 : IVec S2x500000 1 := cmpi .slt main_arg2 main_v53
  let main_c_21 : IVec S_ 1 := constantI S_ 1 1#1
  let main_v55 : IVec S_ 1 := (fun x v => Host.reduce IntOp.andi x v reducesTo_S2x500000_S_d0_1 h_S_) main_v54 main_c_21
  let main_v56 : IVec S_ 1 := andi main_v52 main_v55
  main_v56

def fn_part2 {F : FTy → Type} [FloatOps F] (main_arg2 : IVec S2x500000 32) (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S2x500000 32 := broadcastInDim S2x500000 ![] bcast_S_S2x500000 main_c_18
  let main_v50 : IVec S2x500000 1 := cmpi .sge main_arg2 main_v49
  fn_part3 (F := F) main_arg2 main_v48 main_v50

def fn_part1 {F : FTy → Type} [FloatOps F] (main_arg2 : IVec S2x500000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S50000x128 .f32) (main_arg1 : FVec F S500000x128 .f32) (main_arg2 : IVec S2x500000 32) (main_arg3 : FVec F S384x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S50000x128 : Shape := ⟨2, ![50000, 128]⟩
abbrev S500000x128 : Shape := ⟨2, ![500000, 128]⟩
abbrev S2x500000 : Shape := ⟨2, ![2, 500000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S5000x128 : Shape := ⟨2, ![5000, 128]⟩
abbrev S1x128 : Shape := ⟨2, ![1, 128]⟩
abbrev S2000x128 : Shape := ⟨2, ![2000, 128]⟩
abbrev S50000x1 : Shape := ⟨2, ![50000, 1]⟩

abbrev nBuf : Space → Nat
  | .hbm => 137
  | .vmem => 25
  | .smem => 0
  | _ => 0

abbrev hbmTy0_0 (i : Nat) : BufTy := match i % 128 with
  | 0 => ⟨S50000x128, .f32⟩
  | 1 => ⟨S500000x128, .f32⟩
  | 2 => ⟨S2x500000, .i32⟩
  | 3 => ⟨S384x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S1x500000, .i32⟩
  | 12 => ⟨S500000, .i32⟩
  | 13 => ⟨S1x500000, .i32⟩
  | 14 => ⟨S500000, .i32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S1, .i32⟩
  | 24 => ⟨S_, .i32⟩
  | 25 => ⟨S500000x1, .i32⟩
  | 26 => ⟨S500000x1, .i1⟩
  | 27 => ⟨S1x1, .i32⟩
  | 28 => ⟨S500000x1, .i32⟩
  | 29 => ⟨S500000x1, .i1⟩
  | 30 => ⟨S500000x1, .i1⟩
  | 31 => ⟨S_, .i1⟩
  | 32 => ⟨S500000, .i1⟩
  | 33 => ⟨S500000x128, .f32⟩
  | 34 => ⟨S500000x128, .i1⟩
  | 35 => ⟨S_, .f32⟩
  | 36 => ⟨S500000x128, .f32⟩
  | 37 => ⟨S500000x128, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S1, .i32⟩
  | 47 => ⟨S_, .i32⟩
  | 48 => ⟨S500000x1, .i32⟩
  | 49 => ⟨S500000x1, .i1⟩
  | 50 => ⟨S1x1, .i32⟩
  | 51 => ⟨S500000x1, .i32⟩
  | 52 => ⟨S500000x1, .i1⟩
  | 53 => ⟨S500000x1, .i1⟩
  | 54 => ⟨S_, .i1⟩
  | 55 => ⟨S500000, .i1⟩
  | 56 => ⟨S500000x128, .f32⟩
  | 57 => ⟨S500000x128, .i1⟩
  | 58 => ⟨S_, .f32⟩
  | 59 => ⟨S500000x128, .f32⟩
  | 60 => ⟨S500000x128, .f32⟩
  | 61 => ⟨S128x128, .f32⟩
  | 62 => ⟨S128x128, .f32⟩
  | 63 => ⟨S128x128, .f32⟩
  | 64 => ⟨S500000x128, .f32⟩
  | 65 => ⟨S_, .f32⟩
  | 66 => ⟨S50000x128, .f32⟩
  | 67 => ⟨S500000x1, .i32⟩
  | 68 => ⟨S50000x128, .f32⟩
  | 69 => ⟨S128x128, .f32⟩
  | 70 => ⟨S128x128, .f32⟩
  | 71 => ⟨S50000x128, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S1, .i32⟩
  | 81 => ⟨S_, .i32⟩
  | 82 => ⟨S500000x1, .i32⟩
  | 83 => ⟨S500000x1, .i1⟩
  | 84 => ⟨S1x1, .i32⟩
  | 85 => ⟨S500000x1, .i32⟩
  | 86 => ⟨S500000x1, .i1⟩
  | 87 => ⟨S500000x1, .i1⟩
  | 88 => ⟨S_, .i1⟩
  | 89 => ⟨S500000, .i1⟩
  | 90 => ⟨S500000x128, .f32⟩
  | 91 => ⟨S500000x128, .i1⟩
  | 92 => ⟨S_, .f32⟩
  | 93 => ⟨S500000x128, .f32⟩
  | 94 => ⟨S500000x128, .f32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S1, .i32⟩
  | 104 => ⟨S_, .i32⟩
  | 105 => ⟨S500000x1, .i32⟩
  | 106 => ⟨S500000x1, .i1⟩
  | 107 => ⟨S1x1, .i32⟩
  | 108 => ⟨S500000x1, .i32⟩
  | 109 => ⟨S500000x1, .i1⟩
  | 110 => ⟨S500000x1, .i1⟩
  | 111 => ⟨S_, .i1⟩
  | 112 => ⟨S500000, .i1⟩
  | 113 => ⟨S500000x128, .f32⟩
  | 114 => ⟨S500000x128, .i1⟩
  | 115 => ⟨S_, .f32⟩
  | 116 => ⟨S500000x128, .f32⟩
  | 117 => ⟨S500000x128, .f32⟩
  | 118 => ⟨S500000x128, .f32⟩
  | 119 => ⟨S_, .f32⟩
  | 120 => ⟨S500000x128, .f32⟩
  | 121 => ⟨S500000x128, .f32⟩
  | 122 => ⟨S_, .f32⟩
  | 123 => ⟨S500000x1, .f32⟩
  | 124 => ⟨S_, .f32⟩
  | 125 => ⟨S50000x1, .f32⟩
  | 126 => ⟨S500000x1, .i32⟩
  | 127 => ⟨S50000x1, .f32⟩
  | _ => ⟨S50000x128, .f32⟩

abbrev hbmTy0_1 (i : Nat) : BufTy := match i % 128 with
  | 0 => ⟨S_, .f32⟩
  | 1 => ⟨S50000x128, .f32⟩
  | 2 => ⟨S500000x1, .i32⟩
  | 3 => ⟨S50000x128, .f32⟩
  | 4 => ⟨S_, .f32⟩
  | 5 => ⟨S50000x1, .f32⟩
  | 6 => ⟨S50000x1, .f32⟩
  | 7 => ⟨S50000x128, .f32⟩
  | 8 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S2000x128, .f32⟩
  | .local _ .vmem, ⟨24, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_cst : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v16 : Ref sig .tc := ⟨.hbm, 94, rfl⟩
abbrev main_call3_c : Ref sig .tc := ⟨.hbm, 95, rfl⟩
abbrev main_call3_v0 : Ref sig .tc := ⟨.hbm, 96, rfl⟩
abbrev main_call3_v1 : Ref sig .tc := ⟨.hbm, 97, rfl⟩
abbrev main_call3_c_0 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c_1 : Ref sig .tc := ⟨.hbm, 103, rfl⟩
abbrev main_call3_c_2 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_call3_c_3 : Ref sig .tc := ⟨.hbm, 111, rfl⟩
abbrev main_call3_v12 : Ref sig .tc := ⟨.hbm, 112, rfl⟩
abbrev main_call3_v13 : Ref sig .tc := ⟨.hbm, 113, rfl⟩
abbrev main_call3_v14 : Ref sig .tc := ⟨.hbm, 114, rfl⟩
abbrev main_call3_cst : Ref sig .tc := ⟨.hbm, 115, rfl⟩
abbrev main_call3_v15 : Ref sig .tc := ⟨.hbm, 116, rfl⟩
abbrev main_v17 : Ref sig .tc := ⟨.hbm, 117, rfl⟩
abbrev main_v18 : Ref sig .tc := ⟨.hbm, 118, rfl⟩
abbrev main_cst_0 : Ref sig .tc := ⟨.hbm, 119, rfl⟩
abbrev main_v19 : Ref sig .tc := ⟨.hbm, 120, rfl⟩
abbrev main_v20 : Ref sig .tc := ⟨.hbm, 121, rfl⟩
abbrev main_cst_1 : Ref sig .tc := ⟨.hbm, 122, rfl⟩
abbrev main_v21 : Ref sig .tc := ⟨.hbm, 123, rfl⟩
abbrev main_cst_2 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_cst_3 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_cst_4 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  dot_S5000x128_S128x128_S5000x128_1_0_0_1_n_n_wf : DotDims.WF S5000x128 S128x128 S5000x128 [1] [0] [0] [1] [] []
  scatter_S50000x128_S500000x1_S500000x128_1_0_0_1_wf : ScatterDims.WF S50000x128 S500000x1 S500000x128 [1] [0] [0] 1
  dot_S2000x128_S128x128_S2000x128_1_0_0_1_n_n_wf : DotDims.WF S2000x128 S128x128 S2000x128 [1] [0] [0] [1] [] []
  scatter_S50000x1_S500000x1_S500000x1_1_0_0_1_wf : ScatterDims.WF S50000x1 S500000x1 S500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S500000x128.size a
  hwx0_9 : ∀ i : grid0.Coords, EltTy.bits .f32 = 32 ∨ (Rect.block (s := S500000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S500000x128 : Shape := ⟨2, ![500000, 128]⟩
abbrev S2x500000 : Shape := ⟨2, ![2, 500000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S1x128 : Shape := ⟨2, ![1, 128]⟩
abbrev S50000x256 : Shape := ⟨2, ![50000, 256]⟩
abbrev S50000x1 : Shape := ⟨2, ![50000, 1]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000x128, .f32⟩
  | .hbm, ⟨2, _⟩ => ⟨S2x500000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S500000x384, .f32⟩
  | .hbm, ⟨34, _⟩ => ⟨S500000x128, .f32⟩
  | .hbm, ⟨35, _⟩ => ⟨S1x128, .f32⟩
  | .hbm, ⟨36, _⟩ => ⟨S500000x128, .f32⟩
  | .hbm, ⟨37, _⟩ => ⟨S500000x128, .f32⟩
  | .hbm, ⟨38, _⟩ => ⟨S_, .f32⟩
  | .hbm, ⟨39, _⟩ => ⟨S500000x128, .f32⟩
  | .hbm, ⟨40, _⟩ => ⟨S500000x128, .f32⟩
  | .hbm, ⟨41, _⟩ => ⟨S500000x128, .f32⟩
  | .hbm, ⟨42, _⟩ => ⟨S1x128, .f32⟩
  | .hbm, ⟨43, _⟩ => ⟨S500000x128, .f32⟩
  | .hbm, ⟨44, _⟩ => ⟨S500000x128, .f32⟩
  | .hbm, ⟨45, _⟩ => ⟨S_, .f32⟩
  | .hbm, ⟨46, _⟩ => ⟨S50000x128, .f32⟩
  | .hbm, ⟨47, _⟩ => ⟨S500000x1, .i32⟩
  | .hbm, ⟨48, _⟩ => ⟨S50000x128, .f32⟩
  | .hbm, ⟨49, _⟩ => ⟨S50000x256, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S_, .i32⟩
  | .hbm, ⟨65, _⟩ => ⟨S500000, .i32⟩
  | .hbm, ⟨66, _⟩ => ⟨S500000, .i32⟩
  | .hbm, ⟨67, _⟩ => ⟨S500000, .i32⟩
  | .hbm, ⟨68, _⟩ => ⟨S500000x1, .i32⟩
  | .hbm, ⟨69, _⟩ => ⟨S500000x128, .f32⟩
  | .hbm, ⟨70, _⟩ => ⟨S_, .i32⟩
  | .hbm, ⟨71, _⟩ => ⟨S500000, .i32⟩
  | .hbm, ⟨72, _⟩ => ⟨S500000, .i1⟩
  | .hbm, ⟨73, _⟩ => ⟨S_, .i32⟩
  | .hbm, ⟨74, _⟩ => ⟨S500000, .i32⟩
  | .hbm, ⟨75, _⟩ => ⟨S500000, .i32⟩
  | .hbm, ⟨76, _⟩ => ⟨S500000, .i32⟩
  | .hbm, ⟨77, _⟩ => ⟨S500000x1, .i32⟩
  | .hbm, ⟨78, _⟩ => ⟨S500000x128, .f32⟩
  | .hbm, ⟨79, _⟩ => ⟨S500000x128, .f32⟩
  | .hbm, ⟨80, _⟩ => ⟨S_, .f32⟩
  | .hbm, ⟨81, _⟩ => ⟨S500000x128, .f32⟩
  | .hbm, ⟨82, _⟩ => ⟨S500000x128, .f32⟩
  | .hbm, ⟨83, _⟩ => ⟨S_, .f32⟩
  | .hbm, ⟨84, _⟩ => ⟨S500000x1, .f32⟩
  | .hbm, ⟨85, _⟩ => ⟨S_, .f32⟩
  | .hbm, ⟨86, _⟩ => ⟨S50000x1, .f32⟩
  | .hbm, ⟨87, _⟩ => ⟨S500000x1, .i32⟩
  | .hbm, ⟨88, _⟩ => ⟨S50000x1, .f32⟩
  | .hbm, ⟨89, _⟩ => ⟨S_, .f32⟩
  | .hbm, ⟨90, _⟩ => ⟨S50000x128, .f32⟩
  | .hbm, ⟨91, _⟩ => ⟨S500000x1, .i32⟩
  | .hbm, ⟨92, _⟩ => ⟨S50000x128, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x128, .f32⟩
  | .hbm, ⟨97, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_3 : Ref sig .tc := ⟨.hbm, 61, rfl⟩
abbrev main_v41 : Ref sig .tc := ⟨.hbm, 62, rfl⟩
abbrev main_v42 : Ref sig .tc := ⟨.hbm, 63, rfl⟩
abbrev main_c_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_5 : Ref sig .tc := ⟨.hbm, 70, rfl⟩
abbrev main_v48 : Ref sig .tc := ⟨.hbm, 71, rfl⟩
abbrev main_v49 : Ref sig .tc := ⟨.hbm, 72, rfl⟩
abbrev main_c_6 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_7 : Ref sig .tc := ⟨.hbm, 80, rfl⟩
abbrev main_v56 : Ref sig .tc := ⟨.hbm, 81, rfl⟩
abbrev main_v57 : Ref sig .tc := ⟨.hbm, 82, rfl⟩
abbrev main_cst_8 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S50000x1_S500000x1_S500000x1_1_0_0_1_wf : ScatterDims.WF S50000x1 S500000x1 S500000x1 [1] [0] [0] 1

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf

class Facts : Prop extends Facts₀ where

variable [Facts]
-- ==== Proof.PreDecode.lean ====
import proofs.«423864_j76630806495924_1_alg».proof.Pre_finite_inputs
import Idealize.ShloMosaic.Lib.ReduceAll
import Idealize.ShloMosaic.Lib.Affine
import Idealize.ShloMosaic.Lib.ValueIdx

/-!
  What the precondition says of the edge table.

  The precondition is a conjunction: every float input is finite, and every entry of the edge table is at least `0`
  and less than `50000`, the number of nodes. It is printed as one `i1` scalar: the `and` of the `jnp.all`s, each a
  reduce by `and` over a comparison array. From "the scalar is one" the last two conjuncts are split off (the
  finiteness conjuncts are not opened) and read back entry by entry as facts about the table's words taken as signed
  integers.
-/

noncomputable section

namespace Cert.Pre_finite_inputs.Decode

open Cert.Pre_finite_inputs Idealize.ShloMosaic

variable {F : FTy → Type} [FloatOps F] [Cert.Pre_finite_inputs.Facts]

instance : Subsingleton S_.Idx := ⟨fun a b => funext fun d => d.elim0⟩

/-- Under the precondition every entry of the edge table, as a signed integer, is a node number. -/
theorem table_in_range (a0 : FVec F S50000x128 .f32) (a1 : FVec F S500000x128 .f32) (a2 : IVec S2x500000 32)
    (a3 : FVec F S384x128 .f32) (a4 : FVec F S128 .f32) (a5 : FVec F S128x128 .f32) (a6 : FVec F S128 .f32)
    (a7 : FVec F S256x128 .f32) (a8 : FVec F S128 .f32) (a9 : FVec F S128x128 .f32) (a10 : FVec F S128 .f32)
    (h : fn (F := F) a0 a1 a2 a3 a4 a5 a6 a7 a8 a9 a10 = fun _ => 1#1) (i : S2x500000.Idx) :
    0 ≤ (a2 i).toInt ∧ (a2 i).toInt < 50000 := by
  have h0 := congrFun h ValueIdx.ix0
  dsimp only [fn, fn_part1, fn_part2, fn_part3] at h0
  obtain ⟨h1, hlt⟩ := IntOp.andi_eq_one.1 h0
  obtain ⟨-, hge⟩ := IntOp.andi_eq_one.1 h1
  have e1 := Host.reduce_andi_all _ _ _ _ ValueIdx.ix0 hge i
  have e2 := Host.reduce_andi_all _ _ _ _ ValueIdx.ix0 hlt i
  have g1 : (0#32).toInt ≤ (a2 i).toInt := IntOp.cmpi_sge.1 e1
  have g2 : (a2 i).toInt < (50000#32).toInt := IntOp.cmpi_slt.1 e2
  have c0 : (0#32).toInt = 0 := by decide
  have c1 : (50000#32).toInt = 50000 := by decide
  rw [c0] at g1
  rw [c1] at g2
  exact ⟨g1, g2⟩

end Cert.Pre_finite_inputs.Decode

end
-- ==== Proof.HostStages.lean ====
import proofs.«423864_j76630806495924_1_alg».proof.Proof.Gen.KernelIdeal.Frame

/-!
  The host operations of the kernel's program, stretch by stretch, as functions of the buffer contents the stretch
  starts from.

  The program's host side is: the two rows of the edge table (`src`, `dst`); four checked row lookups (`jnp.take`:
  the endpoint features before the first region, the updated endpoint features after the second); slices of the two
  first-layer weight matrices; the message aggregation (a scatter-add of the edge network's output at `dst`); and the
  smoothing tail (the mean of the two endpoints' updated features per edge, its scatter-add at `dst`, and the division
  by the in-degree capped below by one). Each lemma reads one result buffer after one stretch as that stretch's
  operations applied to the contents before it, `V`, at the buffers the stretch reads.
-/

set_option maxRecDepth 16384

noncomputable section

namespace Cert.KernelIdeal.Host

open Cert.KernelIdeal Cert.KernelIdeal.Gen
open Idealize.ShloMosaic Idealize.ShloMosaic.TcCoe Idealize.SL.Sem

variable {F : FTy → Type} [FloatOps F]

/-- Row `0` of the edge table: the source node of every edge. -/
def src (x2 : (⟨S2x500000, .i32⟩ : BufTy).Contents (Elt F)) : (⟨S500000, .i32⟩ : BufTy).Contents (Elt F) :=
  shapeCast _ (extractStridedSlice S1x500000 ![0, 0] x2 slices_S2x500000_S1x500000_0_0) shapeCasts_S1x500000_S500000

/-- Row `1` of the edge table: the destination node of every edge. -/
def dst (x2 : (⟨S2x500000, .i32⟩ : BufTy).Contents (Elt F)) : (⟨S500000, .i32⟩ : BufTy).Contents (Elt F) :=
  shapeCast _ (extractStridedSlice S1x500000 ![1, 0] x2 slices_S2x500000_S1x500000_1_0) shapeCasts_S1x500000_S500000

/-- An index vector with each negative entry moved up by the number of nodes. -/
def wrapped (idx : (⟨S500000, .i32⟩ : BufTy).Contents (Elt F)) : (⟨S500000, .i32⟩ : BufTy).Contents (Elt F) :=
  select (cmpi .slt idx (broadcastInDim S500000 ![] bcast_S_S500000 (constantI S_ 32 0#32)))
    (addi idx (broadcastInDim S500000 ![] bcast_S_S500000 (constantI S_ 32 50000#32))) idx

/-- The wrapped indices as the column of start indices a gather takes. -/
def startCol (idx : (⟨S500000, .i32⟩ : BufTy).Contents (Elt F)) : (⟨S500000x1, .i32⟩ : BufTy).Contents (Elt F) :=
  broadcastInDim S500000x1 ![0] bcast_S500000_S500000x1_0 (wrapped (F := F) idx)

/-- The rows of a node array at the wrapped indices. -/
def rows (x : (⟨S50000x128, .f32⟩ : BufTy).Contents (Elt F)) (idx : (⟨S500000, .i32⟩ : BufTy).Contents (Elt F)) :
    (⟨S500000x128, .f32⟩ : BufTy).Contents (Elt F) :=
  Host.gather gather_S50000x128_S500000x1_S500000x128_1_0_n_n_0_1_1128 x (startCol (F := F) idx)

/-- Which wrapped indices are in range: both comparisons, joined along the index column. -/
def inRange (idx : (⟨S500000, .i32⟩ : BufTy).Contents (Elt F)) : (⟨S500000, .i1⟩ : BufTy).Contents (Elt F) :=
  Host.reduce IntOp.andi
    (andi (cmpi .sge (startCol (F := F) idx) (broadcastInDim S500000x1 ![] bcast_S_S500000x1 (constantI S_ 32 0#32)))
      (cmpi .sle (startCol (F := F) idx)
        (broadcastInDim S500000x1 ![0, 1] bcast_S1x1_S500000x1_0_1 (broadcastInDim S1x1 ![1] bcast_S1_S1x1_1 (constantI S1 32 49999#32)))))
    (constantI S_ 1 1#1) reducesTo_S500000x1_S500000_d1 h_S_

/-- The checked lookup: the rows at the wrapped indices, the fill word where an index is out of range. -/
def take (x : (⟨S50000x128, .f32⟩ : BufTy).Contents (Elt F)) (idx : (⟨S500000, .i32⟩ : BufTy).Contents (Elt F)) :
    (⟨S500000x128, .f32⟩ : BufTy).Contents (Elt F) :=
  select (broadcastInDim S500000x128 ![0] bcast_S500000_S500000x128_0 (inRange (F := F) idx)) (rows x idx)
    (broadcastInDim S500000x128 ![] bcast_S_S500000x128 (constant S_ .f32 0x7FC00000#32))

variable (V : Valuation τ sig (Elt F))

/-! ## The first stretch: the two rows of the edge table -/

theorem src_stage : StableHlo.after hostOps0 V (Proc.devRef .tc main_v1) = src (F := F) (V (Proc.devRef .tc main_arg2)) := by
  after_results_simp; rfl

theorem dst_stage : StableHlo.after hostOps0 V (Proc.devRef .tc main_v3) = dst (F := F) (V (Proc.devRef .tc main_arg2)) := by
  after_results_simp; rfl

/-! ## The four checked lookups -/

set_option maxHeartbeats 1600000 in
theorem take_stage_v4 : StableHlo.after hostOps0_1 V (Proc.devRef .tc main_v4)
    = take (F := F) (V (Proc.devRef .tc main_arg0)) (V (Proc.devRef .tc main_v1)) := by
  after_results_simp
  simp only [StableHlo.TRef.ofBuf, StableHlo.TRef.toBuf, cast_eq]
  unfold take rows inRange startCol wrapped
  rfl

set_option maxHeartbeats 1600000 in
theorem take_stage_v5 : StableHlo.after hostOps0_2 V (Proc.devRef .tc main_v5)
    = take (F := F) (V (Proc.devRef .tc main_arg0)) (V (Proc.devRef .tc main_v3)) := by
  after_results_simp
  simp only [StableHlo.TRef.ofBuf, StableHlo.TRef.toBuf, cast_eq]
  unfold take rows inRange startCol wrapped
  rfl

set_option maxHeartbeats 1600000 in
theorem take_stage_v16 : StableHlo.after hostOps2 V (Proc.devRef .tc main_v16)
    = take (F := F) (V (Proc.devRef .tc main_v15)) (V (Proc.devRef .tc main_v1)) := by
  after_results_simp
  simp only [StableHlo.TRef.ofBuf, StableHlo.TRef.toBuf, cast_eq]
  unfold take rows inRange startCol wrapped
  rfl

set_option maxHeartbeats 1600000 in
theorem take_stage_v17 : StableHlo.after hostOps2_1 V (Proc.devRef .tc main_v17)
    = take (F := F) (V (Proc.devRef .tc main_v15)) (V (Proc.devRef .tc main_v3)) := by
  after_results_simp
  simp only [StableHlo.TRef.ofBuf, StableHlo.TRef.toBuf, cast_eq]
  unfold take rows inRange startCol wrapped
  rfl

end Cert.KernelIdeal.Host

end
-- ==== Proof.HostTail.lean ====
import proofs.«423864_j76630806495924_1_alg».proof.Proof.Gen.KernelIdeal.Frame

/-!
  The remaining host stretches of the kernel's program: the slices of the two first-layer weight matrices, the
  aggregation of the edge network's output at the destination nodes, and the smoothing tail.

  The aggregation is a scatter-add of the rows of an edge array into a zero node array at the destination indices.
  The smoothing tail takes the mean of the two looked-up endpoint rows per edge, aggregates those rows at the
  destinations, and divides each node's row by its in-degree capped below by one; the in-degree is the same scatter-add
  of a column of ones.
-/

set_option maxRecDepth 16384

noncomputable section

namespace Cert.KernelIdeal.Host

open Cert.KernelIdeal Cert.KernelIdeal.Gen
open Idealize.ShloMosaic Idealize.ShloMosaic.TcCoe Idealize.SL.Sem

variable {F : FTy → Type} [FloatOps F]

/-- The rows of an edge array added into a zero node array at the destination of each edge. -/
def aggregate (dstv : (⟨S500000, .i32⟩ : BufTy).Contents (Elt F)) (u : (⟨S500000x128, .f32⟩ : BufTy).Contents (Elt F)) :
    (⟨S50000x128, .f32⟩ : BufTy).Contents (Elt F) :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 dstv) u

/-- Half the sum of the two endpoint rows of every edge. -/
def smoothEdges (us ud : (⟨S500000x128, .f32⟩ : BufTy).Contents (Elt F)) : (⟨S500000x128, .f32⟩ : BufTy).Contents (Elt F) :=
  mulf (broadcastInDim S500000x128 ![] bcast_S_S500000x128 (constant S_ .f32 0x3F000000#32)) (addf us ud)

/-- The in-degree of every node, capped below by one, as a column. -/
def degree (dstv : (⟨S500000, .i32⟩ : BufTy).Contents (Elt F)) : (⟨S50000x1, .f32⟩ : BufTy).Contents (Elt F) :=
  maximumf
    (Host.scatterAdd scatter_S50000x1_S500000x1_S500000x1_1_0_0_1
      (broadcastInDim S50000x1 ![] bcast_S_S50000x1 (constant S_ .f32 0x00000000#32))
      (broadcastInDim S500000x1 ![0] bcast_S500000_S500000x1_0 dstv)
      (broadcastInDim S500000x1 ![] bcast_S_S500000x1 (constant S_ .f32 0x3F800000#32)))
    (broadcastInDim S50000x1 ![] bcast_S_S50000x1 (constant S_ .f32 0x3F800000#32))

/-- The smoothed edge rows aggregated at the destinations, each node's row divided by its capped in-degree. -/
def smoothNodes (dstv : (⟨S500000, .i32⟩ : BufTy).Contents (Elt F)) (se : (⟨S500000x128, .f32⟩ : BufTy).Contents (Elt F)) :
    (⟨S50000x128, .f32⟩ : BufTy).Contents (Elt F) :=
  Host.divf (aggregate dstv se) (broadcastInDim S50000x128 ![0, 1] bcast_S50000x1_S50000x128_0_1 (degree (F := F) dstv))

variable (V : Valuation τ sig (Elt F))

/-! ## The slices of the first weight matrices -/

theorem slice_v6 : StableHlo.after hostOps0_3 V (Proc.devRef .tc main_v6)
    = extractStridedSlice S128x128 ![0, 0] (V (Proc.devRef .tc main_arg3)) slices_S384x128_S128x128_0_0 := by
  after_results_simp

theorem slice_v7 : StableHlo.after hostOps0_3 V (Proc.devRef .tc main_v7)
    = extractStridedSlice S128x128 ![128, 0] (V (Proc.devRef .tc main_arg3)) slices_S384x128_S128x128_128_0 := by
  after_results_simp

theorem slice_v8 : StableHlo.after hostOps0_3 V (Proc.devRef .tc main_v8)
    = extractStridedSlice S128x128 ![256, 0] (V (Proc.devRef .tc main_arg3)) slices_S384x128_S128x128_256_0 := by
  after_results_simp

theorem slice_v13 : StableHlo.after hostOps1 V (Proc.devRef .tc main_v13)
    = extractStridedSlice S128x128 ![0, 0] (V (Proc.devRef .tc main_arg7)) slices_S256x128_S128x128_0_0 := by
  after_results_simp

theorem slice_v14 : StableHlo.after hostOps1 V (Proc.devRef .tc main_v14)
    = extractStridedSlice S128x128 ![128, 0] (V (Proc.devRef .tc main_arg7)) slices_S256x128_S128x128_128_0 := by
  after_results_simp

/-! ## The aggregation between the two regions -/

theorem agg_stage : StableHlo.after hostOps1 V (Proc.devRef .tc main_v12)
    = aggregate (F := F) (V (Proc.devRef .tc main_v3)) (V (Proc.devRef .tc main_v9)) := by
  after_results_simp; rfl

/-! ## The smoothing tail -/

theorem edges_stage : StableHlo.after hostOps2_2 V (Proc.devRef .tc main_v20)
    = smoothEdges (F := F) (V (Proc.devRef .tc main_v16)) (V (Proc.devRef .tc main_v17)) := by
  after_results_simp; rfl

theorem nodes_stage : StableHlo.after hostOps2_2 V (Proc.devRef .tc main_v31)
    = smoothNodes (F := F) (V (Proc.devRef .tc main_v3))
        (smoothEdges (F := F) (V (Proc.devRef .tc main_v16)) (V (Proc.devRef .tc main_v17))) := by
  after_results_simp; rfl

end Cert.KernelIdeal.Host

end
-- ==== Proof.HostKeep.lean ====
import proofs.«423864_j76630806495924_1_alg».proof.Proof.HostStages
import proofs.«423864_j76630806495924_1_alg».proof.Proof.HostTail

/-!
  Buffers a host stretch does not write keep their contents, and the three stretches after the second region
  composed: the two lookups of the updated node rows, then the smoothing tail.
-/

set_option maxRecDepth 16384

noncomputable section

namespace Cert.KernelIdeal.Host

open Cert.KernelIdeal Cert.KernelIdeal.Gen
open Idealize.ShloMosaic Idealize.ShloMosaic.TcCoe Idealize.SL.Sem

variable {F : FTy → Type} [FloatOps F]
variable (V : Valuation τ sig (Elt F))

/-! ## Through the aggregation stretch -/

theorem keep1_arg0 : StableHlo.after hostOps1 V (Proc.devRef .tc main_arg0) = V (Proc.devRef .tc main_arg0) := by after_results_simp
theorem keep1_arg8 : StableHlo.after hostOps1 V (Proc.devRef .tc main_arg8) = V (Proc.devRef .tc main_arg8) := by after_results_simp
theorem keep1_arg9 : StableHlo.after hostOps1 V (Proc.devRef .tc main_arg9) = V (Proc.devRef .tc main_arg9) := by after_results_simp
theorem keep1_arg10 : StableHlo.after hostOps1 V (Proc.devRef .tc main_arg10) = V (Proc.devRef .tc main_arg10) := by after_results_simp
theorem keep1_v1 : StableHlo.after hostOps1 V (Proc.devRef .tc main_v1) = V (Proc.devRef .tc main_v1) := by after_results_simp
theorem keep1_v3 : StableHlo.after hostOps1 V (Proc.devRef .tc main_v3) = V (Proc.devRef .tc main_v3) := by after_results_simp

/-! ## Through the lookups after the second region -/

set_option maxHeartbeats 1600000 in
theorem keep2_v15 : StableHlo.after hostOps2 V (Proc.devRef .tc main_v15) = V (Proc.devRef .tc main_v15) := by after_results_simp
set_option maxHeartbeats 1600000 in
theorem keep2_v3 : StableHlo.after hostOps2 V (Proc.devRef .tc main_v3) = V (Proc.devRef .tc main_v3) := by after_results_simp
set_option maxHeartbeats 1600000 in
theorem keep21_v16 : StableHlo.after hostOps2_1 V (Proc.devRef .tc main_v16) = V (Proc.devRef .tc main_v16) := by after_results_simp
set_option maxHeartbeats 1600000 in
theorem keep21_v3 : StableHlo.after hostOps2_1 V (Proc.devRef .tc main_v3) = V (Proc.devRef .tc main_v3) := by after_results_simp

/-- The smoothed edge rows after the three closing stretches, from the contents the second region leaves. -/
theorem tail_edges : StableHlo.after hostOps2_2 (StableHlo.after hostOps2_1 (StableHlo.after hostOps2 V)) (Proc.devRef .tc main_v20)
    = smoothEdges (F := F) (take (F := F) (V (Proc.devRef .tc main_v15)) (V (Proc.devRef .tc main_v1)))
        (take (F := F) (V (Proc.devRef .tc main_v15)) (V (Proc.devRef .tc main_v3))) := by
  rw [edges_stage, keep21_v16, take_stage_v16, take_stage_v17, keep2_v15, keep2_v3]

/-- The smoothed node rows after the three closing stretches. -/
theorem tail_nodes : StableHlo.after hostOps2_2 (StableHlo.after hostOps2_1 (StableHlo.after hostOps2 V)) (Proc.devRef .tc main_v31)
    = smoothNodes (F := F) (V (Proc.devRef .tc main_v3))
        (smoothEdges (F := F) (take (F := F) (V (Proc.devRef .tc main_v15)) (V (Proc.devRef .tc main_v1)))
          (take (F := F) (V (Proc.devRef .tc main_v15)) (V (Proc.devRef .tc main_v3)))) := by
  rw [nodes_stage, keep21_v16, keep21_v3, take_stage_v16, take_stage_v17, keep2_v15, keep2_v3]

end Cert.KernelIdeal.Host

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«423864_j76630806495924_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.Spec.lean ====
/-
  The two networks of the message-passing block as functions of whole arrays, at the ideal values.

  Both networks are two dense layers applied to every row of their input by itself. The first layer's input is a
  concatenation of several row blocks of width 128 (the two endpoint features and the edge's own features for the
  edge network; a node's features and its aggregated messages for the node network), so its product with the first
  weight matrix is a sum of products of each block with the matching 128 rows of that matrix: `edgeHidden` and
  `nodeHidden` state it in that split form. The second layer (`layer2`) adds the first bias, takes the positive
  part, multiplies into the second weight matrix and adds the second bias.

  Everything is stated for an array of `M` rows, `M` arbitrary: entry `(r, j)` depends on row `r` of each input array
  only (`edgeArr_row`, `nodeArr_row`), which is what lets a kernel that computes the network block of rows by block of
  rows be read as computing it on the whole array.
-/
import proofs.«423864_j76630806495924_1_alg».proof.Proof.LibRowOps

noncomputable section

namespace Cert.Spec

open Idealize.ShloMosaic Idealize.ShloMosaic.ValueIdx Cert.Lib

/-- An `M × K` array of extended reals. -/
abbrev A2 (M K : ℕ) : Type := (⟨2, ![M, K]⟩ : Shape).Idx → EReal
/-- A vector of `K` extended reals. -/
abbrev A1 (K : ℕ) : Type := (⟨1, ![K]⟩ : Shape).Idx → EReal

/-- Row `r` of an array. -/
def row {M K : ℕ} (x : A2 M K) (r : Fin M) : Fin K → EReal := fun a => x (ix2 r a)

/-- The first layer of the edge network before its bias: the source rows, the destination rows and the edge rows, each
    against its own 128 rows of the first weight matrix, added in that order. -/
def edgeHidden {M : ℕ} (xs xd ea : A2 M 128) (Ws Wd We : A2 128 128) : A2 M 128 :=
  fun i => (projRow (row xs (i 0)) Ws (i 1) + projRow (row xd (i 0)) Wd (i 1)) + projRow (row ea (i 0)) We (i 1)

/-- The first layer of the node network before its bias: the node rows and the aggregated rows, each against its own
    128 rows of the first weight matrix. -/
def nodeHidden {M : ℕ} (xn xa : A2 M 128) (Wn Wa : A2 128 128) : A2 M 128 :=
  fun i => projRow (row xn (i 0)) Wn (i 1) + projRow (row xa (i 0)) Wa (i 1)

/-- The rest of either network on the first layer's products `h`: the bias `b1`, the positive part, the second weight
    matrix, the bias `b2`. -/
def layer2 {M : ℕ} (h : A2 M 128) (b1 : A1 128) (W2 : A2 128 128) (b2 : A1 128) : A2 M 128 :=
  fun i => projRow (fun k => max (row h (i 0) k + b1 (ix1 k)) 0) W2 (i 1) + b2 (ix1 (i 1))

/-- The edge network on whole arrays. -/
def edgeArr {M : ℕ} (xs xd ea : A2 M 128) (Ws Wd We : A2 128 128) (b1 : A1 128) (W2 : A2 128 128) (b2 : A1 128) : A2 M 128 :=
  layer2 (edgeHidden xs xd ea Ws Wd We) b1 W2 b2

/-- The node network on whole arrays. -/
def nodeArr {M : ℕ} (xn xa : A2 M 128) (Wn Wa : A2 128 128) (b1 : A1 128) (W2 : A2 128 128) (b2 : A1 128) : A2 M 128 :=
  layer2 (nodeHidden xn xa Wn Wa) b1 W2 b2

theorem edgeHidden_apply {M : ℕ} (xs xd ea : A2 M 128) (Ws Wd We : A2 128 128) (r : Fin M) (k : Fin 128) :
    edgeHidden xs xd ea Ws Wd We (ix2 r k)
      = (projRow (row xs r) Ws k + projRow (row xd r) Wd k) + projRow (row ea r) We k := rfl

theorem nodeHidden_apply {M : ℕ} (xn xa : A2 M 128) (Wn Wa : A2 128 128) (r : Fin M) (k : Fin 128) :
    nodeHidden xn xa Wn Wa (ix2 r k) = projRow (row xn r) Wn k + projRow (row xa r) Wa k := rfl

theorem layer2_apply {M : ℕ} (h : A2 M 128) (b1 : A1 128) (W2 : A2 128 128) (b2 : A1 128) (r : Fin M) (j : Fin 128) :
    layer2 h b1 W2 b2 (ix2 r j) = projRow (fun k => max (row h r k + b1 (ix1 k)) 0) W2 j + b2 (ix1 j) := rfl

/-- Entry `(r, j)` of the edge network reads row `r` of each input only: two families of arrays, of any heights,
    that agree on a pair of rows give the same entry there. -/
theorem edgeArr_row {M M' : ℕ} (xs xd ea : A2 M 128) (xs' xd' ea' : A2 M' 128) (Ws Wd We : A2 128 128) (b1 : A1 128)
    (W2 : A2 128 128) (b2 : A1 128) (r : Fin M) (r' : Fin M') (hs : row xs r = row xs' r') (hd : row xd r = row xd' r')
    (he : row ea r = row ea' r') (j : Fin 128) :
    edgeArr xs xd ea Ws Wd We b1 W2 b2 (ix2 r j) = edgeArr xs' xd' ea' Ws Wd We b1 W2 b2 (ix2 r' j) := by
  unfold edgeArr
  rw [layer2_apply, layer2_apply]
  have e : row (edgeHidden xs xd ea Ws Wd We) r = row (edgeHidden xs' xd' ea' Ws Wd We) r' := by
    funext k
    show edgeHidden xs xd ea Ws Wd We (ix2 r k) = edgeHidden xs' xd' ea' Ws Wd We (ix2 r' k)
    rw [edgeHidden_apply, edgeHidden_apply, hs, hd, he]
  rw [e]

/-- Likewise for the node network. -/
theorem nodeArr_row {M M' : ℕ} (xn xa : A2 M 128) (xn' xa' : A2 M' 128) (Wn Wa : A2 128 128) (b1 : A1 128)
    (W2 : A2 128 128) (b2 : A1 128) (r : Fin M) (r' : Fin M') (hn : row xn r = row xn' r') (ha : row xa r = row xa' r')
    (j : Fin 128) :
    nodeArr xn xa Wn Wa b1 W2 b2 (ix2 r j) = nodeArr xn' xa' Wn Wa b1 W2 b2 (ix2 r' j) := by
  unfold nodeArr
  rw [layer2_apply, layer2_apply]
  have e : row (nodeHidden xn xa Wn Wa) r = row (nodeHidden xn' xa' Wn Wa) r' := by
    funext k
    show nodeHidden xn xa Wn Wa (ix2 r k) = nodeHidden xn' xa' Wn Wa (ix2 r' k)
    rw [nodeHidden_apply, nodeHidden_apply, hn, ha]
  rw [e]

end Cert.Spec

end
-- ==== Proof.Region0.lean ====
import proofs.«423864_j76630806495924_1_alg».proof.Proof.Gen.KernelIdeal.Frame
import proofs.«423864_j76630806495924_1_alg».proof.Proof.Spec
import Idealize.ShloMosaic.Lib.Pipeline.Value

/-!
  The first region: the edge network, computed 5000 edges at a grid point, is the edge network of the whole arrays.

  At a grid point the body loads a block of 5000 rows of each of the three row arrays (the looked-up source rows, the
  looked-up destination rows, the edge features) and the whole of the three 128-row weight slices, the second weight
  matrix and the two biases, and stores one 5000-row block of the result. Reading the body's arithmetic at an entry
  `(r, j)` of the block (`pay_apply`): three matrix products into zero accumulators added in order, the bias row, the
  positive part, a fourth product, the second bias row: the specification's edge network of the loaded blocks; the
  changes of float format are the identity at the ideal values. Entry `(r, j)` of that network reads row `r` of the
  blocks only, and row `r` of the block at point `t` is row `5000 t + r` of the array, so what point `t` writes back
  is its block of the network of the whole arrays (`flushed_eq`). The 100 blocks tile the 500000 rows (`covered`), so
  the result array ends as that network (`edge_out`).
-/

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx Cert.Lib
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- A bias vector viewed as one row and laid down the rows of a block reads, at `(r, k)`, the vector's entry `k`. -/
theorem bias_row {M : ℕ} (b : FVec Ideal ⟨1, ![128]⟩ .f32) (h1 : (⟨1, ![128]⟩ : Shape).ShapeCasts ⟨2, ![1, 128]⟩)
    (h2 : (⟨2, ![1, 128]⟩ : Shape).Broadcasts ⟨2, ![M, 128]⟩) (r : Fin M) (k : Fin 128) :
    broadcastTo ⟨2, ![M, 128]⟩ (shapeCast ⟨2, ![1, 128]⟩ b h1) h2 (ix2 r k) = b (ix1 k) := by
  rw [broadcastTo_row_apply]
  exact shapeCast_apply b h1 _ _ (by
    rw [Shape.rowMajor_val_two, Shape.rowMajor_val_one]
    show k.val = 0 * 128 + k.val
    omega)

/-- A product into the zero accumulator of two operands narrowed to bf16, at `(r, j)`: row `r` against column `j`
    (narrowing is the identity at the ideal values). -/
theorem mm_apply {M : ℕ} (l : FVec Ideal ⟨2, ![M, 128]⟩ .f32) (w : FVec Ideal ⟨2, ![128, 128]⟩ .f32)
    (h1 h2 : FTy.bits .bf16 < FTy.bits .f32) (r : Fin M) (j : Fin 128) :
    matmul (DotDims.plain M 128 128) none (truncf .bf16 l h1) (truncf .bf16 w h2)
        (constant ⟨2, ![M, 128]⟩ .f32 0x00000000#32) (ix2 r j)
      = projRow (Cert.Spec.row l r) w j :=
  matmul_plain_zero_apply M 128 128 none (truncf .bf16 l h1) (truncf .bf16 w h2) (ix2 r j)

theorem dot_eq : dot_S5000x128_S128x128_S5000x128_1_0_0_1_n_n = DotDims.plain 5000 128 128 := rfl

/-- The body's arithmetic at entry `(r, j)` of its block is the specification's edge network of the loaded blocks. -/
theorem pay_apply (xs xd ea : Vec Ideal S5000x128 .f32) (w1s w1d w1e w2 : Vec Ideal S128x128 .f32) (b1 b2 : Vec Ideal S128 .f32)
    (r : Fin 5000) (j : Fin 128) :
    k0_pay1 (F := Ideal) xs xd ea w1s w1d w1e w2 b1 b2 (ix2 r j) = Cert.Spec.edgeArr xs xd ea w1s w1d w1e b1 w2 b2 (ix2 r j) := by
  unfold k0_pay1
  rw [shapeCast_self, shapeCast_self, shapeCast_self, shapeCast_self, shapeCast_self, dot_eq]
  unfold Cert.Spec.edgeArr
  rw [Cert.Spec.layer2_apply, addf_apply, bias_row b2 _ _ r j]
  refine congrArg (· + b2 (ix1 j)) ?_
  refine (matmul_plain_zero_apply 5000 128 128 none _ _ (ix2 r j)).trans ?_
  refine Finset.sum_congr rfl fun k _ => ?_
  refine congrArg (· * w2 (ix2 k j)) ?_
  rw [truncf_apply, maximumf_apply, broadcast_apply, addf_apply, bias_row b1 _ _ r k, addf_apply, addf_apply,
    mm_apply xs w1s _ _ r k, mm_apply xd w1d _ _ r k, mm_apply ea w1e _ _ r k]
  show max _ (Ideal.ofBits .f32 0x00000000#32) = _
  rw [Ideal.ofBits_zero_f32]
  rfl

variable (V : (c : Dev nD) → (b : Ref sig .tc) → Buf (Elt Ideal) ((c : Thread nD τ).loc b))

/-- The edge network of the arrays the region finds. -/
abbrev G (c : Dev nD) : S500000x128.Idx → EReal :=
  Cert.Spec.edgeArr (V c main_v4) (V c main_v5) (V c main_arg1) (V c main_v6) (V c main_v7) (V c main_v8) (V c main_arg4)
    (V c main_arg5) (V c main_arg6)

/-- The printed index maps over the grid: the three row windows and the output window move one block of rows per
    point; the six whole-array windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem tlt (t : Fin cfg0.N) : t.val < 100 := lt_of_lt_of_eq t.isLt N_0

/-- Row `r` of a row window's block at point `t` is row `5000 t + r` of its array (the three row windows). -/
theorem row0 (c : Dev nD) (t : Fin cfg0.N) (p : Fin 5000) (h : 5000 * t.val + p.val < 500000) :
    Cert.Spec.row (M := 5000) (iblk0 V c 0 t) p = Cert.Spec.row (M := 500000) (V c main_v4) ⟨5000 * t.val + p.val, h⟩ := by
  obtain ⟨e0, e1, -⟩ := idx_facts t
  funext a
  show V c main_v4 (((cfg0.win 0).blk t).view.emb (ix2 p a)) = V c main_v4 (ix2 ⟨5000 * t.val + p.val, h⟩ a)
  refine congrArg (V c main_v4) ?_
  funext b; apply Fin.ext
  match b with
  | ⟨0, _⟩ => show win0_0.index t (0 : Fin 2) * 5000 + 1 * p.val = 5000 * t.val + p.val; rw [e0]; omega
  | ⟨1, _⟩ => show win0_0.index t (1 : Fin 2) * 128 + 1 * a.val = a.val; rw [e1]; omega

theorem row1 (c : Dev nD) (t : Fin cfg0.N) (p : Fin 5000) (h : 5000 * t.val + p.val < 500000) :
    Cert.Spec.row (M := 5000) (iblk0 V c 1 t) p = Cert.Spec.row (M := 500000) (V c main_v5) ⟨5000 * t.val + p.val, h⟩ := by
  obtain ⟨-, -, e0, e1, -⟩ := idx_facts t
  funext a
  show V c main_v5 (((cfg0.win 1).blk t).view.emb (ix2 p a)) = V c main_v5 (ix2 ⟨5000 * t.val + p.val, h⟩ a)
  refine congrArg (V c main_v5) ?_
  funext b; apply Fin.ext
  match b with
  | ⟨0, _⟩ => show win0_1.index t (0 : Fin 2) * 5000 + 1 * p.val = 5000 * t.val + p.val; rw [e0]; omega
  | ⟨1, _⟩ => show win0_1.index t (1 : Fin 2) * 128 + 1 * a.val = a.val; rw [e1]; omega

theorem row2 (c : Dev nD) (t : Fin cfg0.N) (p : Fin 5000) (h : 5000 * t.val + p.val < 500000) :
    Cert.Spec.row (M := 5000) (iblk0 V c 2 t) p = Cert.Spec.row (M := 500000) (V c main_arg1) ⟨5000 * t.val + p.val, h⟩ := by
  obtain ⟨-, -, -, -, e0, e1, -⟩ := idx_facts t
  funext a
  show V c main_arg1 (((cfg0.win 2).blk t).view.emb (ix2 p a)) = V c main_arg1 (ix2 ⟨5000 * t.val + p.val, h⟩ a)
  refine congrArg (V c main_arg1) ?_
  funext b; apply Fin.ext
  match b with
  | ⟨0, _⟩ => show win0_2.index t (0 : Fin 2) * 5000 + 1 * p.val = 5000 * t.val + p.val; rw [e0]; omega
  | ⟨1, _⟩ => show win0_2.index t (1 : Fin 2) * 128 + 1 * a.val = a.val; rw [e1]; omega

/-- The block of a whole-array window is its array: the three weight slices, the second weight matrix, the biases. -/
theorem whole3 (c : Dev nD) (t : Fin cfg0.N) : (iblk0 V c 3 t : Cert.Spec.A2 128 128) = V c main_v6 := by
  obtain ⟨-, -, -, -, -, -, e0, e1, -⟩ := idx_facts t
  funext y
  show V c main_v6 (((cfg0.win 3).blk t).view.emb y) = V c main_v6 y
  refine congrArg (V c main_v6) ?_
  funext b; apply Fin.ext
  match b with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem whole4 (c : Dev nD) (t : Fin cfg0.N) : (iblk0 V c 4 t : Cert.Spec.A2 128 128) = V c main_v7 := by
  obtain ⟨-, -, -, -, -, -, -, -, e0, e1, -⟩ := idx_facts t
  funext y
  show V c main_v7 (((cfg0.win 4).blk t).view.emb y) = V c main_v7 y
  refine congrArg (V c main_v7) ?_
  funext b; apply Fin.ext
  match b with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem whole5 (c : Dev nD) (t : Fin cfg0.N) : (iblk0 V c 5 t : Cert.Spec.A2 128 128) = V c main_v8 := by
  obtain ⟨-, -, -, -, -, -, -, -, -, -, e0, e1, -⟩ := idx_facts t
  funext y
  show V c main_v8 (((cfg0.win 5).blk t).view.emb y) = V c main_v8 y
  refine congrArg (V c main_v8) ?_
  funext b; apply Fin.ext
  match b with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem whole6 (c : Dev nD) (t : Fin cfg0.N) : (iblk0 V c 6 t : Cert.Spec.A1 128) = V c main_arg4 := by
  obtain ⟨-, -, -, -, -, -, -, -, -, -, -, -, e0, -⟩ := idx_facts t
  funext y
  show V c main_arg4 (((cfg0.win 6).blk t).view.emb y) = V c main_arg4 y
  refine congrArg (V c main_arg4) ?_
  funext b; apply Fin.ext
  match b with
  | ⟨0, _⟩ => show win0_6.index t (0 : Fin 1) * 128 + 1 * (y 0).val = (y 0).val; rw [e0]; omega

theorem whole7 (c : Dev nD) (t : Fin cfg0.N) : (iblk0 V c 7 t : Cert.Spec.A2 128 128) = V c main_arg5 := by
  obtain ⟨-, -, -, -, -, -, -, -, -, -, -, -, -, e0, e1, -⟩ := idx_facts t
  funext y
  show V c main_arg5 (((cfg0.win 7).blk t).view.emb y) = V c main_arg5 y
  refine congrArg (V c main_arg5) ?_
  funext b; apply Fin.ext
  match b with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

theorem whole8 (c : Dev nD) (t : Fin cfg0.N) : (iblk0 V c 8 t : Cert.Spec.A1 128) = V c main_arg6 := by
  obtain ⟨-, -, -, -, -, -, -, -, -, -, -, -, -, -, -, e0, -⟩ := idx_facts t
  funext y
  show V c main_arg6 (((cfg0.win 8).blk t).view.emb y) = V c main_arg6 y
  refine congrArg (V c main_arg6) ?_
  funext b; apply Fin.ext
  match b with
  | ⟨0, _⟩ => show win0_8.index t (0 : Fin 1) * 128 + 1 * (y 0).val = (y 0).val; rw [e0]; omega

/-- What point `t` writes back is its block of the edge network of the whole arrays. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 (F := Ideal) V c).after 9 t) = _
  rw [after0_9]
  unfold out0_9
  rw [View.canon_unit_zero hz2]
  simp only [View.ld_unit_zero (S := S5000x128) hz2, View.ld_unit_zero (S := S128x128) hz2, View.ld_unit_zero (S := S128) hz1]
  funext y
  obtain ⟨p, q, rfl⟩ : ∃ (p : Fin 5000) (q : Fin 128), y = ix2 p q := ⟨y 0, y 1, eq_ix2 y⟩
  have ht := tlt t
  have hlt : 5000 * t.val + p.val < 500000 := by have := p.isLt; omega
  have hemb : ((cfg0.win 9).blk t).view.emb (ix2 p q) = (ix2 (⟨5000 * t.val + p.val, hlt⟩ : Fin 500000) q : S500000x128.Idx) := by
    obtain ⟨-, -, -, -, -, -, -, -, -, -, -, -, -, -, -, -, e0, e1⟩ := idx_facts t
    funext b; apply Fin.ext
    match b with
    | ⟨0, _⟩ => show win0_9.index t (0 : Fin 2) * 5000 + 1 * p.val = 5000 * t.val + p.val; rw [e0]; omega
    | ⟨1, _⟩ => show win0_9.index t (1 : Fin 2) * 128 + 1 * q.val = q.val; rw [e1]; omega
  show k0_pay1 (F := Ideal) (iblk0 V c 0 t) (iblk0 V c 1 t) (iblk0 V c 2 t) (iblk0 V c 3 t) (iblk0 V c 4 t) (iblk0 V c 5 t)
      (iblk0 V c 7 t) (iblk0 V c 6 t) (iblk0 V c 8 t) (ix2 p q) = G V c (((cfg0.win 9).blk t).view.emb (ix2 p q))
  refine (pay_apply (iblk0 V c 0 t) (iblk0 V c 1 t) (iblk0 V c 2 t) (iblk0 V c 3 t) (iblk0 V c 4 t) (iblk0 V c 5 t)
      (iblk0 V c 7 t) (iblk0 V c 6 t) (iblk0 V c 8 t) p q).trans ?_
  rw [hemb, whole3 V c t, whole4 V c t, whole5 V c t, whole6 V c t, whole7 V c t, whole8 V c t]
  exact Cert.Spec.edgeArr_row _ _ _ _ _ _ _ _ _ _ _ _ p ⟨5000 * t.val + p.val, hlt⟩ (row0 V c t p hlt) (row1 V c t p hlt) (row2 V c t p hlt) q

/-- An index of the result array is in point `t`'s block iff its row is among the block's 5000 rows. -/
theorem mem_blk (t : Fin cfg0.N) (i : S500000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v9).slice (win0_9.rect t)).set ↔ _
  rw [View.set_slice_whole, Rect.mem_set_unit]
  exact Iff.rfl

/-- Every index of the result array is in the block of the point its row falls to: row `e` is written at point `e / 5000`. -/
theorem covered (i : S500000x128.Idx) : ∃ t : Fin cfg0.N, (cfg0.win 9).flush t = true ∧ i ∈ ((cfg0.win 9).blk t).view.set := by
  have hi0 : (i 0).val < 500000 := (i 0).isLt
  have hi1 : (i 1).val < 128 := (i 1).isLt
  have hN : cfg0.N = 100 := N_0
  refine ⟨⟨(i 0).val / 5000, by rw [hN]; omega⟩, flush0_9 _, ?_⟩
  rw [mem_blk]
  obtain ⟨-, -, -, -, -, -, -, -, -, -, -, -, -, -, -, -, e0, e1⟩ := idx_facts ⟨(i 0).val / 5000, by rw [hN]; omega⟩
  intro a
  match a with
  | ⟨0, _⟩ =>
    show win0_9.index _ (0 : Fin 2) * 5000 ≤ (i 0).val ∧ (i 0).val < win0_9.index _ (0 : Fin 2) * 5000 + 5000
    rw [e0]; show (i 0).val / 5000 * 5000 ≤ (i 0).val ∧ (i 0).val < (i 0).val / 5000 * 5000 + 5000; omega
  | ⟨1, _⟩ =>
    show win0_9.index _ (1 : Fin 2) * 128 ≤ (i 1).val ∧ (i 1).val < win0_9.index _ (1 : Fin 2) * 128 + 128
    rw [e1]; omega

/-- THE RESULT ARRAY of the first region: the edge network of the arrays the region finds. -/
theorem edge_out (c : Dev nD) :
    (dat0 (F := Ideal) V c).arrAt 9 cfg0.N
      = Cert.Spec.edgeArr (V c main_v4) (V c main_v5) (V c main_arg1) (V c main_v6) (V c main_v7) (V c main_v8) (V c main_arg4)
          (V c main_arg5) (V c main_arg6) :=
  (dat0 (F := Ideal) V c).arrAt_eq_of_cover 9 (G V c) (fun t _ => flushed_eq V c t) covered

end Cert.KernelIdeal.Region0

end
-- ==== Proof.Region1.lean ====
import proofs.«423864_j76630806495924_1_alg».proof.Proof.Gen.KernelIdeal.Frame
import proofs.«423864_j76630806495924_1_alg».proof.Proof.Spec
import Idealize.ShloMosaic.Lib.Pipeline.Value

/-!
  The second region: the node network, computed 2000 nodes at a grid point, is the node network of the whole arrays.

  A grid point works on 2000 consecutive nodes. Its body loads the matching 2000 rows of the two row arrays (the nodes'
  own features and the messages aggregated at them), and, whole, the two 128-row weight slices, the first bias, the
  second weight matrix and the second bias; it stores the 2000 rows of the result that belong to those nodes. At an
  entry `(r, j)` of the block the body's arithmetic (`pay_apply`) is: two matrix products into zero accumulators,
  added; the first bias laid down the rows; the positive part; a third product; the second bias. That is the
  specification's node network of the loaded blocks, since narrowing a float to a shorter format changes nothing at
  the ideal values. The network's entry `(r, j)` depends on row `r` of the two row blocks only, and row `r` of the
  block at point `t` is row `2000 t + r` of the array; so point `t` writes back exactly its 2000 rows of the node
  network of the whole arrays (`flushed_eq`). Row `e` of the result lies in the block of point `e / 2000`, so the 25
  blocks cover the 50000 rows (`covered`), and the result array ends as that network (`node_out`).
-/

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx Cert.Lib
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- A bias vector, taken as a matrix of one row and repeated down the rows of a block, has at `(r, k)` the vector's
    entry `k`, whatever the row. -/
theorem bias_row {M : ℕ} (b : FVec Ideal ⟨1, ![128]⟩ .f32) (h1 : (⟨1, ![128]⟩ : Shape).ShapeCasts ⟨2, ![1, 128]⟩)
    (h2 : (⟨2, ![1, 128]⟩ : Shape).Broadcasts ⟨2, ![M, 128]⟩) (r : Fin M) (k : Fin 128) :
    broadcastTo ⟨2, ![M, 128]⟩ (shapeCast ⟨2, ![1, 128]⟩ b h1) h2 (ix2 r k) = b (ix1 k) := by
  rw [broadcastTo_row_apply]
  exact shapeCast_apply b h1 _ _ (by
    rw [Shape.rowMajor_val_two, Shape.rowMajor_val_one]
    show k.val = 0 * 128 + k.val
    omega)

/-- The product of two operands narrowed to bf16, accumulated onto zero, has at `(r, j)` the sum of the products of
    row `r` of the left operand with column `j` of the right one: at the ideal values the narrowing is the identity. -/
theorem mm_apply {M : ℕ} (l : FVec Ideal ⟨2, ![M, 128]⟩ .f32) (w : FVec Ideal ⟨2, ![128, 128]⟩ .f32)
    (h1 h2 : FTy.bits .bf16 < FTy.bits .f32) (r : Fin M) (j : Fin 128) :
    matmul (DotDims.plain M 128 128) none (truncf .bf16 l h1) (truncf .bf16 w h2)
        (constant ⟨2, ![M, 128]⟩ .f32 0x00000000#32) (ix2 r j)
      = projRow (Cert.Spec.row l r) w j :=
  matmul_plain_zero_apply M 128 128 none (truncf .bf16 l h1) (truncf .bf16 w h2) (ix2 r j)

theorem dot_eq : dot_S2000x128_S128x128_S2000x128_1_0_0_1_n_n = DotDims.plain 2000 128 128 := rfl

/-- At entry `(r, j)` of its block the body computes the specification's node network of the blocks it loaded: the two
    first-layer products added, the bias, the positive part, the second product, the second bias. -/
theorem pay_apply (xn xa : Vec Ideal S2000x128 .f32) (wn wa w2 : Vec Ideal S128x128 .f32) (b1 b2 : Vec Ideal S128 .f32)
    (r : Fin 2000) (j : Fin 128) :
    k1_pay1 (F := Ideal) xn xa wn wa w2 b1 b2 (ix2 r j) = Cert.Spec.nodeArr xn xa wn wa b1 w2 b2 (ix2 r j) := by
  unfold k1_pay1
  rw [shapeCast_self, shapeCast_self, shapeCast_self, dot_eq]
  unfold Cert.Spec.nodeArr
  rw [Cert.Spec.layer2_apply, addf_apply, bias_row b2 _ _ r j]
  refine congrArg (· + b2 (ix1 j)) ?_
  refine (matmul_plain_zero_apply 2000 128 128 none _ _ (ix2 r j)).trans ?_
  refine Finset.sum_congr rfl fun k _ => ?_
  refine congrArg (· * w2 (ix2 k j)) ?_
  rw [truncf_apply, maximumf_apply, broadcast_apply, addf_apply, bias_row b1 _ _ r k, addf_apply,
    mm_apply xn wn _ _ r k, mm_apply xa wa _ _ r k]
  show max _ (Ideal.ofBits .f32 0x00000000#32) = _
  rw [Ideal.ofBits_zero_f32]
  rfl

variable (V : (c : Dev nD) → (b : Ref sig .tc) → Buf (Elt Ideal) ((c : Thread nD τ).loc b))

/-- The node network of the arrays the region finds. -/
abbrev G (c : Dev nD) : S50000x128.Idx → EReal :=
  Cert.Spec.nodeArr (V c main_arg0) (V c main_v12) (V c main_v13) (V c main_v14) (V c main_arg8) (V c main_arg9) (V c main_arg10)

/-- The printed index maps over the grid: the two row windows and the output window advance by one block of rows per
    point; the five windows that hold a whole array stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

theorem tlt (t : Fin cfg1.N) : t.val < 25 := lt_of_lt_of_eq t.isLt N_1

/-- Row `r` of a row window's block at point `t` is row `2000 t + r` of its array (the two row windows). -/
theorem row0 (c : Dev nD) (t : Fin cfg1.N) (p : Fin 2000) (h : 2000 * t.val + p.val < 50000) :
    Cert.Spec.row (M := 2000) (iblk1 V c 0 t) p = Cert.Spec.row (M := 50000) (V c main_arg0) ⟨2000 * t.val + p.val, h⟩ := by
  obtain ⟨e0, e1, -⟩ := idx_facts t
  funext a
  show V c main_arg0 (((cfg1.win 0).blk t).view.emb (ix2 p a)) = V c main_arg0 (ix2 ⟨2000 * t.val + p.val, h⟩ a)
  refine congrArg (V c main_arg0) ?_
  funext b; apply Fin.ext
  match b with
  | ⟨0, _⟩ => show win1_0.index t (0 : Fin 2) * 2000 + 1 * p.val = 2000 * t.val + p.val; rw [e0]; omega
  | ⟨1, _⟩ => show win1_0.index t (1 : Fin 2) * 128 + 1 * a.val = a.val; rw [e1]; omega

theorem row1 (c : Dev nD) (t : Fin cfg1.N) (p : Fin 2000) (h : 2000 * t.val + p.val < 50000) :
    Cert.Spec.row (M := 2000) (iblk1 V c 1 t) p = Cert.Spec.row (M := 50000) (V c main_v12) ⟨2000 * t.val + p.val, h⟩ := by
  obtain ⟨-, -, e0, e1, -⟩ := idx_facts t
  funext a
  show V c main_v12 (((cfg1.win 1).blk t).view.emb (ix2 p a)) = V c main_v12 (ix2 ⟨2000 * t.val + p.val, h⟩ a)
  refine congrArg (V c main_v12) ?_
  funext b; apply Fin.ext
  match b with
  | ⟨0, _⟩ => show win1_1.index t (0 : Fin 2) * 2000 + 1 * p.val = 2000 * t.val + p.val; rw [e0]; omega
  | ⟨1, _⟩ => show win1_1.index t (1 : Fin 2) * 128 + 1 * a.val = a.val; rw [e1]; omega

/-- A window that holds a whole array has that array as its block at every point: the two weight slices, the first
    bias, the second weight matrix, the second bias. -/
theorem whole2 (c : Dev nD) (t : Fin cfg1.N) : (iblk1 V c 2 t : Cert.Spec.A2 128 128) = V c main_v13 := by
  obtain ⟨-, -, -, -, e0, e1, -⟩ := idx_facts t
  funext y
  show V c main_v13 (((cfg1.win 2).blk t).view.emb y) = V c main_v13 y
  refine congrArg (V c main_v13) ?_
  funext b; apply Fin.ext
  match b with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem whole3 (c : Dev nD) (t : Fin cfg1.N) : (iblk1 V c 3 t : Cert.Spec.A2 128 128) = V c main_v14 := by
  obtain ⟨-, -, -, -, -, -, e0, e1, -⟩ := idx_facts t
  funext y
  show V c main_v14 (((cfg1.win 3).blk t).view.emb y) = V c main_v14 y
  refine congrArg (V c main_v14) ?_
  funext b; apply Fin.ext
  match b with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem whole4 (c : Dev nD) (t : Fin cfg1.N) : (iblk1 V c 4 t : Cert.Spec.A1 128) = V c main_arg8 := by
  obtain ⟨-, -, -, -, -, -, -, -, e0, -⟩ := idx_facts t
  funext y
  show V c main_arg8 (((cfg1.win 4).blk t).view.emb y) = V c main_arg8 y
  refine congrArg (V c main_arg8) ?_
  funext b; apply Fin.ext
  match b with
  | ⟨0, _⟩ => show win1_4.index t (0 : Fin 1) * 128 + 1 * (y 0).val = (y 0).val; rw [e0]; omega

theorem whole5 (c : Dev nD) (t : Fin cfg1.N) : (iblk1 V c 5 t : Cert.Spec.A2 128 128) = V c main_arg9 := by
  obtain ⟨-, -, -, -, -, -, -, -, -, e0, e1, -⟩ := idx_facts t
  funext y
  show V c main_arg9 (((cfg1.win 5).blk t).view.emb y) = V c main_arg9 y
  refine congrArg (V c main_arg9) ?_
  funext b; apply Fin.ext
  match b with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem whole6 (c : Dev nD) (t : Fin cfg1.N) : (iblk1 V c 6 t : Cert.Spec.A1 128) = V c main_arg10 := by
  obtain ⟨-, -, -, -, -, -, -, -, -, -, -, e0, -⟩ := idx_facts t
  funext y
  show V c main_arg10 (((cfg1.win 6).blk t).view.emb y) = V c main_arg10 y
  refine congrArg (V c main_arg10) ?_
  funext b; apply Fin.ext
  match b with
  | ⟨0, _⟩ => show win1_6.index t (0 : Fin 1) * 128 + 1 * (y 0).val = (y 0).val; rw [e0]; omega

/-- What point `t` writes back is its block of the node network of the whole arrays. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 (F := Ideal) V c).after 7 t) = _
  rw [after1_7]
  unfold out1_7
  rw [View.canon_unit_zero hz2]
  simp only [View.ld_unit_zero (S := S2000x128) hz2, View.ld_unit_zero (S := S128x128) hz2, View.ld_unit_zero (S := S128) hz1]
  funext y
  obtain ⟨p, q, rfl⟩ : ∃ (p : Fin 2000) (q : Fin 128), y = ix2 p q := ⟨y 0, y 1, eq_ix2 y⟩
  have ht := tlt t
  have hlt : 2000 * t.val + p.val < 50000 := by have := p.isLt; omega
  have hemb : ((cfg1.win 7).blk t).view.emb (ix2 p q) = (ix2 (⟨2000 * t.val + p.val, hlt⟩ : Fin 50000) q : S50000x128.Idx) := by
    obtain ⟨-, -, -, -, -, -, -, -, -, -, -, -, e0, e1⟩ := idx_facts t
    funext b; apply Fin.ext
    match b with
    | ⟨0, _⟩ => show win1_7.index t (0 : Fin 2) * 2000 + 1 * p.val = 2000 * t.val + p.val; rw [e0]; omega
    | ⟨1, _⟩ => show win1_7.index t (1 : Fin 2) * 128 + 1 * q.val = q.val; rw [e1]; omega
  show k1_pay1 (F := Ideal) (iblk1 V c 0 t) (iblk1 V c 1 t) (iblk1 V c 2 t) (iblk1 V c 3 t) (iblk1 V c 5 t) (iblk1 V c 4 t)
      (iblk1 V c 6 t) (ix2 p q) = G V c (((cfg1.win 7).blk t).view.emb (ix2 p q))
  refine (pay_apply (iblk1 V c 0 t) (iblk1 V c 1 t) (iblk1 V c 2 t) (iblk1 V c 3 t) (iblk1 V c 5 t) (iblk1 V c 4 t)
      (iblk1 V c 6 t) p q).trans ?_
  rw [hemb, whole2 V c t, whole3 V c t, whole4 V c t, whole5 V c t, whole6 V c t]
  exact Cert.Spec.nodeArr_row _ _ _ _ _ _ _ _ _ p ⟨2000 * t.val + p.val, hlt⟩ (row0 V c t p hlt) (row1 V c t p hlt) q

/-- An index of the result array lies in point `t`'s block exactly when its row is one of the block's 2000 rows. -/
theorem mem_blk (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v15).slice (win1_7.rect t)).set ↔ _
  rw [View.set_slice_whole, Rect.mem_set_unit]
  exact Iff.rfl

/-- Every index of the result array lies in the block of the point its row falls to: row `e` is written at point
    `e / 2000`. -/
theorem covered (i : S50000x128.Idx) : ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_7 _, ?_⟩
  rw [mem_blk]
  obtain ⟨-, -, -, -, -, -, -, -, -, -, -, -, e0, e1⟩ := idx_facts ⟨(i 0).val / 2000, by rw [hN]; omega⟩
  intro a
  match a with
  | ⟨0, _⟩ =>
    show win1_7.index _ (0 : Fin 2) * 2000 ≤ (i 0).val ∧ (i 0).val < win1_7.index _ (0 : Fin 2) * 2000 + 2000
    rw [e0]; show (i 0).val / 2000 * 2000 ≤ (i 0).val ∧ (i 0).val < (i 0).val / 2000 * 2000 + 2000; omega
  | ⟨1, _⟩ =>
    show win1_7.index _ (1 : Fin 2) * 128 ≤ (i 1).val ∧ (i 1).val < win1_7.index _ (1 : Fin 2) * 128 + 128
    rw [e1]; omega

/-- THE RESULT ARRAY of the second region: the node network of the arrays the region finds. -/
theorem node_out (c : Dev nD) :
    (dat1 (F := Ideal) V c).arrAt 7 cfg1.N
      = Cert.Spec.nodeArr (V c main_arg0) (V c main_v12) (V c main_v13) (V c main_v14) (V c main_arg8) (V c main_arg9) (V c main_arg10) :=
  (dat1 (F := Ideal) V c).arrAt_eq_of_cover 7 (G V c) (fun t _ => flushed_eq V c t) covered

end Cert.KernelIdeal.Region1

end
-- ==== Proof.RefMlp.lean ====
import proofs.«423864_j76630806495924_1_alg».proof.Proof.Gen.ReferenceIdeal.Read
import proofs.«423864_j76630806495924_1_alg».proof.Proof.Spec
import Mathlib.Algebra.BigOperators.Fin

/-!
  The reference's two networks are the specification's.

  The reference concatenates the row blocks along the feature axis and multiplies the concatenation into the whole first
  weight matrix: a sum over the joined axis. Splitting that sum at the blocks' boundaries gives, block by block, the
  block's rows against the matching 128 rows of the weight matrix, which is the specification's split form; the rest
  of each network (bias, positive part, second matrix, bias) is the same expression on both sides.

  In detail, at an entry `(r, k)` of the first product: the joined row has 384 (or 256) positions; position `a` of it
  is entry `a` of the first block for `a < 128`, entry `a - 128` of the second for `128 ≤ a < 256`, and entry
  `a - 256` of the third beyond; row `a` of the weight matrix is row `a`, `a - 128`, `a - 256` of the slice of 128 rows
  that starts at row 0, 128, 256. So the sum over the joined axis, cut at 128 and 256, is the sum of the blocks' own
  products. Addition of extended reals is associative, so the three partial sums group as the specification groups them;
  nothing else about the arithmetic is used.
-/

noncomputable section

namespace Cert.ReferenceIdeal.Mlp

open Cert.ReferenceIdeal Cert.ReferenceIdeal.Read
open Idealize.ShloMosaic Idealize.ShloMosaic.ValueIdx

/-! ## Sums over a joined axis, cut at the blocks' boundaries -/

/-- A sum over 256 consecutive positions is the sum over the first 128 plus the sum over the last 128. -/
theorem sum_fin256 {β : Type} [AddCommMonoid β] (f : Fin 256 → β) :
    ∑ a : Fin 256, f a = ∑ a : Fin 128, f ⟨a.val, by omega⟩ + ∑ a : Fin 128, f ⟨128 + a.val, by omega⟩ :=
  Fin.sum_univ_add (a := 128) (b := 128) (fun i => f i)

/-- A sum over 384 consecutive positions is the sum over the first 128, the next 128 and the last 128, grouped from
    the left. -/
theorem sum_fin384 {β : Type} [AddCommMonoid β] (f : Fin 384 → β) :
    ∑ a : Fin 384, f a
      = (∑ a : Fin 128, f ⟨a.val, by omega⟩ + ∑ a : Fin 128, f ⟨128 + a.val, by omega⟩)
        + ∑ a : Fin 128, f ⟨256 + a.val, by omega⟩ := by
  have h := Fin.sum_univ_add (a := 128) (b := 128 + 128) (fun i => f i)
  rw [Fin.sum_univ_add (a := 128) (b := 128)] at h
  rw [add_assoc]
  refine h.trans ?_
  refine congrArg₂ (· + ·) rfl (congrArg₂ (· + ·) rfl ?_)
  refine Finset.sum_congr rfl fun a _ => congrArg f (Fin.ext ?_)
  show 128 + (128 + a.val) = 256 + a.val
  omega

/-! ## Row blocks joined along the feature axis, and row slices of a matrix, at an entry -/

section Blocks
variable {α : Type} {M : ℕ}

/-- Three row blocks of width 128 joined along the feature axis: a position in the first 128 reads the first block. -/
theorem cat3_apply0 (A B C : (⟨2, ![M, 128]⟩ : Shape).Idx → α)
    (hc : Shape.Concatenates [(⟨2, ![M, 128]⟩ : Shape), ⟨2, ![M, 128]⟩, ⟨2, ![M, 128]⟩] ⟨2, ![M, 384]⟩ 1)
    (r : Fin M) (a : Fin 128) :
    concatenate ⟨2, ![M, 384]⟩ 1 [⟨⟨2, ![M, 128]⟩, A⟩, ⟨⟨2, ![M, 128]⟩, B⟩, ⟨⟨2, ![M, 128]⟩, C⟩] hc
        (ix2 r (⟨a.val, by omega⟩ : Fin 384)) = A (ix2 r a) := by
  refine concatenate_apply_piece (t := ⟨2, ![M, 384]⟩) (1 : Fin 2)
    [⟨⟨2, ![M, 128]⟩, A⟩, ⟨⟨2, ![M, 128]⟩, B⟩, ⟨⟨2, ![M, 128]⟩, C⟩] hc _ 0 (by show 0 < 3; omega) ⟨2, ![M, 128]⟩ A rfl rfl 0 rfl
    (ix2 r a) ?_ ?_
  · intro b hb
    match b with
    | ⟨0, _⟩ => rfl
    | ⟨1, _⟩ => exact absurd rfl hb
  · show 0 + a.val = a.val
    omega

/-- A position in the second 128 reads the second block, 128 positions back. -/
theorem cat3_apply1 (A B C : (⟨2, ![M, 128]⟩ : Shape).Idx → α)
    (hc : Shape.Concatenates [(⟨2, ![M, 128]⟩ : Shape), ⟨2, ![M, 128]⟩, ⟨2, ![M, 128]⟩] ⟨2, ![M, 384]⟩ 1)
    (r : Fin M) (a : Fin 128) :
    concatenate ⟨2, ![M, 384]⟩ 1 [⟨⟨2, ![M, 128]⟩, A⟩, ⟨⟨2, ![M, 128]⟩, B⟩, ⟨⟨2, ![M, 128]⟩, C⟩] hc
        (ix2 r (⟨128 + a.val, by omega⟩ : Fin 384)) = B (ix2 r a) := by
  refine concatenate_apply_piece (t := ⟨2, ![M, 384]⟩) (1 : Fin 2)
    [⟨⟨2, ![M, 128]⟩, A⟩, ⟨⟨2, ![M, 128]⟩, B⟩, ⟨⟨2, ![M, 128]⟩, C⟩] hc _ 1 (by show 1 < 3; omega) ⟨2, ![M, 128]⟩ B rfl rfl 128 rfl
    (ix2 r a) ?_ ?_
  · intro b hb
    match b with
    | ⟨0, _⟩ => rfl
    | ⟨1, _⟩ => exact absurd rfl hb
  · rfl

/-- A position in the last 128 reads the third block, 256 positions back. -/
theorem cat3_apply2 (A B C : (⟨2, ![M, 128]⟩ : Shape).Idx → α)
    (hc : Shape.Concatenates [(⟨2, ![M, 128]⟩ : Shape), ⟨2, ![M, 128]⟩, ⟨2, ![M, 128]⟩] ⟨2, ![M, 384]⟩ 1)
    (r : Fin M) (a : Fin 128) :
    concatenate ⟨2, ![M, 384]⟩ 1 [⟨⟨2, ![M, 128]⟩, A⟩, ⟨⟨2, ![M, 128]⟩, B⟩, ⟨⟨2, ![M, 128]⟩, C⟩] hc
        (ix2 r (⟨256 + a.val, by omega⟩ : Fin 384)) = C (ix2 r a) := by
  refine concatenate_apply_piece (t := ⟨2, ![M, 384]⟩) (1 : Fin 2)
    [⟨⟨2, ![M, 128]⟩, A⟩, ⟨⟨2, ![M, 128]⟩, B⟩, ⟨⟨2, ![M, 128]⟩, C⟩] hc _ 2 (by show 2 < 3; omega) ⟨2, ![M, 128]⟩ C rfl rfl 256 rfl
    (ix2 r a) ?_ ?_
  · intro b hb
    match b with
    | ⟨0, _⟩ => rfl
    | ⟨1, _⟩ => exact absurd rfl hb
  · rfl

/-- Two row blocks of width 128 joined along the feature axis: a position in the first 128 reads the first block. -/
theorem cat2_apply0 (A B : (⟨2, ![M, 128]⟩ : Shape).Idx → α)
    (hc : Shape.Concatenates [(⟨2, ![M, 128]⟩ : Shape), ⟨2, ![M, 128]⟩] ⟨2, ![M, 256]⟩ 1)
    (r : Fin M) (a : Fin 128) :
    concatenate ⟨2, ![M, 256]⟩ 1 [⟨⟨2, ![M, 128]⟩, A⟩, ⟨⟨2, ![M, 128]⟩, B⟩] hc
        (ix2 r (⟨a.val, by omega⟩ : Fin 256)) = A (ix2 r a) := by
  refine concatenate_apply_piece (t := ⟨2, ![M, 256]⟩) (1 : Fin 2)
    [⟨⟨2, ![M, 128]⟩, A⟩, ⟨⟨2, ![M, 128]⟩, B⟩] hc _ 0 (by show 0 < 2; omega) ⟨2, ![M, 128]⟩ A rfl rfl 0 rfl
    (ix2 r a) ?_ ?_
  · intro b hb
    match b with
    | ⟨0, _⟩ => rfl
    | ⟨1, _⟩ => exact absurd rfl hb
  · show 0 + a.val = a.val
    omega

/-- A position in the last 128 reads the second block, 128 positions back. -/
theorem cat2_apply1 (A B : (⟨2, ![M, 128]⟩ : Shape).Idx → α)
    (hc : Shape.Concatenates [(⟨2, ![M, 128]⟩ : Shape), ⟨2, ![M, 128]⟩] ⟨2, ![M, 256]⟩ 1)
    (r : Fin M) (a : Fin 128) :
    concatenate ⟨2, ![M, 256]⟩ 1 [⟨⟨2, ![M, 128]⟩, A⟩, ⟨⟨2, ![M, 128]⟩, B⟩] hc
        (ix2 r (⟨128 + a.val, by omega⟩ : Fin 256)) = B (ix2 r a) := by
  refine concatenate_apply_piece (t := ⟨2, ![M, 256]⟩) (1 : Fin 2)
    [⟨⟨2, ![M, 128]⟩, A⟩, ⟨⟨2, ![M, 128]⟩, B⟩] hc _ 1 (by show 1 < 2; omega) ⟨2, ![M, 128]⟩ B rfl rfl 128 rfl
    (ix2 r a) ?_ ?_
  · intro b hb
    match b with
    | ⟨0, _⟩ => rfl
    | ⟨1, _⟩ => exact absurd rfl hb
  · rfl

/-- Rows `off` to `off + 127` of a matrix of `R` rows and 128 columns, taken as a matrix of their own: its entry
    `(a, k)` is the whole matrix's entry `(off + a, k)`. -/
theorem sliceRows_apply {R : ℕ} (W : (⟨2, ![R, 128]⟩ : Shape).Idx → α) (off : ℕ) (hoff : off + 128 ≤ R)
    (hs : (⟨2, ![R, 128]⟩ : Shape).Slices ![off, 0] ⟨2, ![128, 128]⟩) (a k : Fin 128) :
    extractStridedSlice ⟨2, ![128, 128]⟩ ![off, 0] W hs (ix2 a k) = W (ix2 (⟨off + a.val, by omega⟩ : Fin R) k) := by
  refine extractStridedSlice_apply ![off, 0] W hs (ix2 a k) _ fun b => ?_
  match b with
  | ⟨0, _⟩ => rfl
  | ⟨1, _⟩ => show k.val = 0 + k.val; omega

end Blocks

/-! ## The first product of each network, split by blocks -/

open Cert.Lib Cert.Spec in
/-- Three joined rows against the whole first weight matrix: the sum over the 384 joined positions is, block by block,
    each block's row against the matching 128 rows of the matrix, added in the blocks' order. -/
theorem cat3_dot {M : ℕ} (A B C : Cert.Spec.A2 M 128) (W : Cert.Spec.A2 384 128)
    (hc : Shape.Concatenates [(⟨2, ![M, 128]⟩ : Shape), ⟨2, ![M, 128]⟩, ⟨2, ![M, 128]⟩] ⟨2, ![M, 384]⟩ 1)
    (h0 : (⟨2, ![384, 128]⟩ : Shape).Slices ![0, 0] ⟨2, ![128, 128]⟩)
    (h1 : (⟨2, ![384, 128]⟩ : Shape).Slices ![128, 0] ⟨2, ![128, 128]⟩)
    (h2 : (⟨2, ![384, 128]⟩ : Shape).Slices ![256, 0] ⟨2, ![128, 128]⟩) (r : Fin M) (k : Fin 128) :
    ∑ a : Fin 384, concatenate ⟨2, ![M, 384]⟩ 1 [⟨⟨2, ![M, 128]⟩, A⟩, ⟨⟨2, ![M, 128]⟩, B⟩, ⟨⟨2, ![M, 128]⟩, C⟩] hc (ix2 r a)
          * W (ix2 a k)
      = (projRow (row A r) (extractStridedSlice ⟨2, ![128, 128]⟩ ![0, 0] W h0) k
          + projRow (row B r) (extractStridedSlice ⟨2, ![128, 128]⟩ ![128, 0] W h1) k)
        + projRow (row C r) (extractStridedSlice ⟨2, ![128, 128]⟩ ![256, 0] W h2) k := by
  rw [sum_fin384]
  unfold projRow row
  refine congrArg₂ (· + ·) (congrArg₂ (· + ·) ?_ ?_) ?_
  · refine Finset.sum_congr rfl fun a _ => ?_
    rw [cat3_apply0, sliceRows_apply W 0 (by omega) h0]
    refine congrArg (fun i => A (ix2 r a) * W (ix2 i k)) (Fin.ext ?_)
    show a.val = 0 + a.val
    omega
  · refine Finset.sum_congr rfl fun a _ => ?_
    rw [cat3_apply1, sliceRows_apply W 128 (by omega) h1]
  · refine Finset.sum_congr rfl fun a _ => ?_
    rw [cat3_apply2, sliceRows_apply W 256 (by omega) h2]

open Cert.Lib Cert.Spec in
/-- Two joined rows against the whole first weight matrix: the sum over the 256 joined positions is each block's row
    against the matching 128 rows of the matrix. -/
theorem cat2_dot {M : ℕ} (A B : Cert.Spec.A2 M 128) (W : Cert.Spec.A2 256 128)
    (hc : Shape.Concatenates [(⟨2, ![M, 128]⟩ : Shape), ⟨2, ![M, 128]⟩] ⟨2, ![M, 256]⟩ 1)
    (h0 : (⟨2, ![256, 128]⟩ : Shape).Slices ![0, 0] ⟨2, ![128, 128]⟩)
    (h1 : (⟨2, ![256, 128]⟩ : Shape).Slices ![128, 0] ⟨2, ![128, 128]⟩) (r : Fin M) (k : Fin 128) :
    ∑ a : Fin 256, concatenate ⟨2, ![M, 256]⟩ 1 [⟨⟨2, ![M, 128]⟩, A⟩, ⟨⟨2, ![M, 128]⟩, B⟩] hc (ix2 r a) * W (ix2 a k)
      = projRow (row A r) (extractStridedSlice ⟨2, ![128, 128]⟩ ![0, 0] W h0) k
          + projRow (row B r) (extractStridedSlice ⟨2, ![128, 128]⟩ ![128, 0] W h1) k := by
  rw [sum_fin256]
  unfold projRow row
  refine congrArg₂ (· + ·) ?_ ?_
  · refine Finset.sum_congr rfl fun a _ => ?_
    rw [cat2_apply0, sliceRows_apply W 0 (by omega) h0]
    refine congrArg (fun i => A (ix2 r a) * W (ix2 i k)) (Fin.ext ?_)
    show a.val = 0 + a.val
    omega
  · refine Finset.sum_congr rfl fun a _ => ?_
    rw [cat2_apply1, sliceRows_apply W 128 (by omega) h1]

/-! ## The reference's operand indices at an index given by its coordinates

Each product of the reference reads its left operand at `(r, k)` and its right operand at `(k, j)`, `k` the summed
position; each bias, broadcast first to a row and then down the rows, is read at the column. -/

theorem lidx_v19_ix (r : Fin 500000) (k : Fin 128) (a : Fin 384) : lidx_main_v19 (ix2 r k) a = ix2 r a := by
  funext b; match b with | ⟨0, _⟩ => rfl | ⟨1, _⟩ => rfl

theorem ridx_v19_ix (r : Fin 500000) (k : Fin 128) (a : Fin 384) : ridx_main_v19 (ix2 r k) a = ix2 a k := by
  funext b; match b with | ⟨0, _⟩ => rfl | ⟨1, _⟩ => rfl

theorem lidx_v24_ix (r : Fin 500000) (j : Fin 128) (k : Fin 128) : lidx_main_v24 (ix2 r j) k = ix2 r k := by
  funext b; match b with | ⟨0, _⟩ => rfl | ⟨1, _⟩ => rfl

theorem ridx_v24_ix (r : Fin 500000) (j : Fin 128) (k : Fin 128) : ridx_main_v24 (ix2 r j) k = ix2 k j := by
  funext b; match b with | ⟨0, _⟩ => rfl | ⟨1, _⟩ => rfl

theorem idx_v21_ix (r : Fin 500000) (k : Fin 128) : idx_main_v20 (idx_main_v21 (ix2 r k)) = ix1 k := by
  funext b; match b with | ⟨0, _⟩ => rfl

theorem idx_v26_ix (r : Fin 500000) (j : Fin 128) : idx_main_v25 (idx_main_v26 (ix2 r j)) = ix1 j := by
  funext b; match b with | ⟨0, _⟩ => rfl

theorem lidx_v32_ix (r : Fin 50000) (k : Fin 128) (a : Fin 256) : lidx_main_v32 (ix2 r k) a = ix2 r a := by
  funext b; match b with | ⟨0, _⟩ => rfl | ⟨1, _⟩ => rfl

theorem ridx_v32_ix (r : Fin 50000) (k : Fin 128) (a : Fin 256) : ridx_main_v32 (ix2 r k) a = ix2 a k := by
  funext b; match b with | ⟨0, _⟩ => rfl | ⟨1, _⟩ => rfl

theorem lidx_v37_ix (r : Fin 50000) (j : Fin 128) (k : Fin 128) : lidx_main_v37 (ix2 r j) k = ix2 r k := by
  funext b; match b with | ⟨0, _⟩ => rfl | ⟨1, _⟩ => rfl

theorem ridx_v37_ix (r : Fin 50000) (j : Fin 128) (k : Fin 128) : ridx_main_v37 (ix2 r j) k = ix2 k j := by
  funext b; match b with | ⟨0, _⟩ => rfl | ⟨1, _⟩ => rfl

theorem idx_v34_ix (r : Fin 50000) (k : Fin 128) : idx_main_v33 (idx_main_v34 (ix2 r k)) = ix1 k := by
  funext b; match b with | ⟨0, _⟩ => rfl

theorem idx_v39_ix (r : Fin 50000) (j : Fin 128) : idx_main_v38 (idx_main_v39 (ix2 r j)) = ix1 j := by
  funext b; match b with | ⟨0, _⟩ => rfl

/-! ## The edge network -/

/-- The reference's first edge product at `(r, k)`, the joined source, destination and edge rows against the whole
    first weight matrix, is the specification's sum of the three blocks' products. -/
theorem ref_edge_hidden (x0 : (⟨S50000x128, .f32⟩ : BufTy).Contents (Elt Ideal)) (x1 : (⟨S500000x128, .f32⟩ : BufTy).Contents (Elt Ideal)) (x2 : (⟨S2x500000, .i32⟩ : BufTy).Contents (Elt Ideal))
    (x3 : (⟨S384x128, .f32⟩ : BufTy).Contents (Elt Ideal))
    (hs0 : S384x128.Slices ![0, 0] S128x128) (hs1 : S384x128.Slices ![128, 0] S128x128) (hs2 : S384x128.Slices ![256, 0] S128x128)
    (r : Fin 500000) (k : Fin 128) :
    val_main_v19 (F := Ideal) x0 x1 x2 x3 (ix2 r k)
      = Cert.Spec.edgeHidden (val_main_v10 (F := Ideal) x0 x2) (val_main_v17 (F := Ideal) x0 x2) x1
          (extractStridedSlice S128x128 ![0, 0] x3 hs0) (extractStridedSlice S128x128 ![128, 0] x3 hs1)
          (extractStridedSlice S128x128 ![256, 0] x3 hs2) (ix2 r k) := by
  rw [val_main_v19_apply, Cert.Spec.edgeHidden_apply]
  unfold val_main_v18
  generalize val_main_v10 (F := Ideal) x0 x2 = A
  generalize val_main_v17 (F := Ideal) x0 x2 = B
  simp only [lidx_v19_ix, ridx_v19_ix]
  exact cat3_dot A B x1 x3 _ hs0 hs1 hs2 r k

/-- The edge network of the reference, on the looked-up endpoint rows and the edge rows, is the specification's on the
    three 128-row slices of the first weight matrix: entry by entry, the second product's sum over the hidden
    positions has the same terms on both sides once the first product is read in its split form, and the zero the
    positive part is taken against is the real number zero. -/
theorem ref_edge (x0 : (⟨S50000x128, .f32⟩ : BufTy).Contents (Elt Ideal)) (x1 : (⟨S500000x128, .f32⟩ : BufTy).Contents (Elt Ideal)) (x2 : (⟨S2x500000, .i32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (hs0 : S384x128.Slices ![0, 0] S128x128) (hs1 : S384x128.Slices ![128, 0] S128x128) (hs2 : S384x128.Slices ![256, 0] S128x128) :
    val_main_v27 (F := Ideal) x0 x1 x2 x3 x4 x5 x6
      = Cert.Spec.edgeArr (val_main_v10 (F := Ideal) x0 x2) (val_main_v17 (F := Ideal) x0 x2) x1
          (extractStridedSlice S128x128 ![0, 0] x3 hs0) (extractStridedSlice S128x128 ![128, 0] x3 hs1)
          (extractStridedSlice S128x128 ![256, 0] x3 hs2) x4 x5 x6 := by
  funext i
  obtain ⟨r, j, rfl⟩ : ∃ (r : Fin 500000) (j : Fin 128), i = ix2 r j := ⟨i 0, i 1, eq_ix2 i⟩
  unfold Cert.Spec.edgeArr
  rw [Cert.Spec.layer2_apply, val_main_v27_apply, val_main_v24_apply, val_main_v26_apply, val_main_v25_apply, idx_v26_ix]
  unfold Cert.Lib.projRow Cert.Spec.row
  refine congrArg₂ (· + ·) (Finset.sum_congr rfl fun k _ => ?_) rfl
  rw [lidx_v24_ix, ridx_v24_ix, val_main_v23_apply, val_main_v22_apply, val_main_v21_apply, val_main_v20_apply,
    idx_v21_ix, val_main_call0_v0_apply, val_main_call0_cst_apply, ref_edge_hidden x0 x1 x2 x3 hs0 hs1 hs2 r k]
  show max (_ + _) (Ideal.ofBits .f32 0x00000000#32) * _ = max (_ + _) 0 * _
  rw [Ideal.ofBits_zero_f32]

/-! ## The node network -/

/-- The reference's first node product at `(r, k)`, the joined node and aggregated rows against the whole first weight
    matrix, is the specification's sum of the two blocks' products. -/
theorem ref_node_hidden (x0 : (⟨S50000x128, .f32⟩ : BufTy).Contents (Elt Ideal)) (x1 : (⟨S500000x128, .f32⟩ : BufTy).Contents (Elt Ideal)) (x2 : (⟨S2x500000, .i32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S256x128, .f32⟩ : BufTy).Contents (Elt Ideal))
    (hn0 : S256x128.Slices ![0, 0] S128x128) (hn1 : S256x128.Slices ![128, 0] S128x128) (r : Fin 50000) (k : Fin 128) :
    val_main_v32 (F := Ideal) x0 x1 x2 x3 x4 x5 x6 x7 (ix2 r k)
      = Cert.Spec.nodeHidden x0 (val_main_v30 (F := Ideal) x0 x1 x2 x3 x4 x5 x6)
          (extractStridedSlice S128x128 ![0, 0] x7 hn0) (extractStridedSlice S128x128 ![128, 0] x7 hn1) (ix2 r k) := by
  rw [val_main_v32_apply, Cert.Spec.nodeHidden_apply]
  unfold val_main_v31
  generalize val_main_v30 (F := Ideal) x0 x1 x2 x3 x4 x5 x6 = B
  simp only [lidx_v32_ix, ridx_v32_ix]
  exact cat2_dot x0 B x7 _ hn0 hn1 r k

/-- The node network of the reference, on the node rows and the aggregated rows, is the specification's on the two
    128-row slices of the first weight matrix, by the same reading of the second product entry by entry. -/
theorem ref_node (x0 : (⟨S50000x128, .f32⟩ : BufTy).Contents (Elt Ideal)) (x1 : (⟨S500000x128, .f32⟩ : BufTy).Contents (Elt Ideal)) (x2 : (⟨S2x500000, .i32⟩ : BufTy).Contents (Elt Ideal))
    (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal))
    (hn0 : S256x128.Slices ![0, 0] S128x128) (hn1 : S256x128.Slices ![128, 0] S128x128) :
    val_main_v40 (F := Ideal) x0 x1 x2 x3 x4 x5 x6 x7 x8 x9 x10
      = Cert.Spec.nodeArr x0 (val_main_v30 (F := Ideal) x0 x1 x2 x3 x4 x5 x6)
          (extractStridedSlice S128x128 ![0, 0] x7 hn0) (extractStridedSlice S128x128 ![128, 0] x7 hn1) x8 x9 x10 := by
  funext i
  obtain ⟨r, j, rfl⟩ : ∃ (r : Fin 50000) (j : Fin 128), i = ix2 r j := ⟨i 0, i 1, eq_ix2 i⟩
  unfold Cert.Spec.nodeArr
  rw [Cert.Spec.layer2_apply, val_main_v40_apply, val_main_v37_apply, val_main_v39_apply, val_main_v38_apply, idx_v39_ix]
  unfold Cert.Lib.projRow Cert.Spec.row
  refine congrArg₂ (· + ·) (Finset.sum_congr rfl fun k _ => ?_) rfl
  rw [lidx_v37_ix, ridx_v37_ix, val_main_v36_apply, val_main_v35_apply, val_main_v34_apply, val_main_v33_apply,
    idx_v34_ix, val_main_call1_v0_apply, val_main_call1_cst_apply, ref_node_hidden x0 x1 x2 x3 x4 x5 x6 x7 hn0 hn1 r k]
  show max (_ + _) (Ideal.ofBits .f32 0x00000000#32) * _ = max (_ + _) 0 * _
  rw [Ideal.ofBits_zero_f32]

end Cert.ReferenceIdeal.Mlp

end
-- ==== Proof.LibRowLookup.lean ====
/-
  A checked row lookup is the plain row lookup when every index is in range.

  `jnp.take(x, idx, axis=0)` in its default mode wraps a negative index once (`idx + N` where `idx < 0`), gathers the
  rows at the wrapped indices, and replaces by a fill value every row whose wrapped index falls outside `[0, N - 1]`:
  a `select` under a mask that is the conjunction, reduced along the index column, of the two comparisons. The plain
  lookup `x[idx]` is the same gather at the same wrapped indices with no mask. When every index word, read as a signed
  integer, lies in `[0, N)`, the wrap leaves it alone, both comparisons hold at every row, the mask is one everywhere,
  and the `select` returns the gathered rows: the two lookups are one array.
-/
import Idealize.ShloMosaic.PureOps
import Idealize.ShloMosaic.Lib.Affine
import Idealize.ShloMosaic.PureOps.Reduce

noncomputable section

namespace Cert.RowLookup

open Idealize.ShloMosaic

/-- A `select` under a mask that is one everywhere is its first branch. -/
theorem select_of_ones {s : Shape} {α : Type} (c : IVec s 1) (a b : s.Idx → α) (hc : ∀ i, c i = 1#1) : select c a b = a := by
  funext i
  show Scalar.select (c i) (a i) (b i) = a i
  rw [hc i]
  rfl

/-- A left fold by `and` from one over words that are all one is one. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_ones f l _ ?_ fun n hn => hl n (List.mem_cons_of_mem _ hn)
    show IntOp.andi init (f a) = 1#1
    rw [h, hl a List.mem_cons_self]
    decide

/-- A reduce by `and` from one of an array that is one everywhere is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  exact foldl_andi_ones (fun n => x (s.rowMajor.symm n)) _ _ (hinit _) fun n _ => hx _

/-- The wrapped index: `idx + N` where `idx < 0`, else `idx`. -/
abbrev wrap {s : Shape} (N : BitVec 32) (h0 : (⟨0, ![]⟩ : Shape).BroadcastsInDim s ![]) (idx : IVec s 32) : IVec s 32 :=
  select (cmpi .slt idx (broadcastInDim s ![] h0 (constantI ⟨0, ![]⟩ 32 0#32)))
    (addi idx (broadcastInDim s ![] h0 (constantI ⟨0, ![]⟩ 32 N))) idx

/-- A non-negative index is its own wrap. -/
theorem wrap_of_nonneg {s : Shape} (N : BitVec 32) (h0 : (⟨0, ![]⟩ : Shape).BroadcastsInDim s ![]) (idx : IVec s 32)
    (k : s.Idx) (hk : 0 ≤ (idx k).toInt) : wrap N h0 idx k = idx k := by
  show Scalar.select (IntOp.cmpi .slt (idx k) 0#32) _ _ = idx k
  have h : IntOp.cmpi .slt (idx k) 0#32 = 0#1 := by
    rcases BitVec.eq_zero_or_eq_one (IntOp.cmpi .slt (idx k) 0#32) with h | h
    · exact h
    · have := IntOp.cmpi_slt.1 h
      have h0 : (0#32).toInt = 0 := by decide
      omega
  rw [h]
  rfl

/-- The checked lookup of rows of `x` (an array of `N` rows) at the `P` wrapped indices, with `fill` where the mask
    is clear, is the plain gather at those wrapped indices when every index lies in `[0, hi]` (`hi = N - 1`). -/
theorem checked_eq_gather {α : Type} {sx : Shape} {P C : ℕ} (N hi : BitVec 32)
    (d : GatherDims sx ⟨2, ![P, 1]⟩ ⟨2, ![P, C]⟩) (x : sx.Idx → α) (idx : IVec ⟨1, ![P]⟩ 32)
    (hr : ∀ p, 0 ≤ (idx p).toInt ∧ (idx p).toInt ≤ hi.toInt)
    (h0 : (⟨0, ![]⟩ : Shape).BroadcastsInDim ⟨1, ![P]⟩ ![])
    (hcol : (⟨1, ![P]⟩ : Shape).BroadcastsInDim ⟨2, ![P, 1]⟩ ![0])
    (h1 : (⟨0, ![]⟩ : Shape).BroadcastsInDim ⟨2, ![P, 1]⟩ ![])
    (h2 : (⟨1, ![1]⟩ : Shape).BroadcastsInDim ⟨2, ![1, 1]⟩ ![1])
    (h3 : (⟨2, ![1, 1]⟩ : Shape).BroadcastsInDim ⟨2, ![P, 1]⟩ ![0, 1])
    (hred : (⟨2, ![P, 1]⟩ : Shape).ReducesTo [1] ⟨1, ![P]⟩) (hS : 0 < (⟨0, ![]⟩ : Shape).numel)
    (h4 : (⟨1, ![P]⟩ : Shape).BroadcastsInDim ⟨2, ![P, C]⟩ ![0])
    (h5 : (⟨0, ![]⟩ : Shape).BroadcastsInDim ⟨2, ![P, C]⟩ ![])
    (fill : (⟨0, ![]⟩ : Shape).Idx → α) :
    select
        (broadcastInDim ⟨2, ![P, C]⟩ ![0] h4
          (Host.reduce IntOp.andi
            (andi
              (cmpi .sge (broadcastInDim ⟨2, ![P, 1]⟩ ![0] hcol (wrap N h0 idx))
                (broadcastInDim ⟨2, ![P, 1]⟩ ![] h1 (constantI ⟨0, ![]⟩ 32 0#32)))
              (cmpi .sle (broadcastInDim ⟨2, ![P, 1]⟩ ![0] hcol (wrap N h0 idx))
                (broadcastInDim ⟨2, ![P, 1]⟩ ![0, 1] h3 (broadcastInDim ⟨2, ![1, 1]⟩ ![1] h2 (constantI ⟨1, ![1]⟩ 32 hi)))))
            (constantI ⟨0, ![]⟩ 1 1#1) hred hS))
        (Host.gather d x (broadcastInDim ⟨2, ![P, 1]⟩ ![0] hcol (wrap N h0 idx)))
        (broadcastInDim ⟨2, ![P, C]⟩ ![] h5 fill)
      = Host.gather d x (broadcastInDim ⟨2, ![P, 1]⟩ ![0] hcol (wrap N h0 idx)) := by
  refine select_of_ones _ _ _ fun i => ?_
  show Host.reduce IntOp.andi _ _ hred hS _ = 1#1
  refine reduce_andi_ones _ _ hred hS (fun j => ?_) (fun _ => rfl) _
  -- at a row of the index column: the wrapped index is the index, which lies in [0, hi]
  show IntOp.andi (IntOp.cmpi .sge (wrap N h0 idx _) 0#32) (IntOp.cmpi .sle (wrap N h0 idx _) hi) = 1#1
  generalize (fun a : Fin (⟨1, ![P]⟩ : Shape).rank => _ : (⟨1, ![P]⟩ : Shape).Idx) = k
  rw [wrap_of_nonneg N h0 idx k (hr k).1]
  refine IntOp.andi_eq_one.2 ⟨IntOp.cmpi_sge.2 ?_, IntOp.cmpi_sle.2 (hr k).2⟩
  have h0' : (0#32).toInt = 0 := by decide
  rw [h0']
  exact (hr k).1

end Cert.RowLookup

end
-- ==== Proof.Bridge.lean ====
import proofs.«423864_j76630806495924_1_alg».proof.Proof.HostStages
import proofs.«423864_j76630806495924_1_alg».proof.Proof.HostTail
import proofs.«423864_j76630806495924_1_alg».proof.Proof.LibRowLookup
import proofs.«423864_j76630806495924_1_alg».proof.Proof.Gen.ReferenceIdeal.Read

/-!
  The kernel's host operations are the reference's, stage by stage.

  Outside its two networks the kernel's program applies to its arrays the very operations the reference applies to
  its own: the rows of the edge table, the wrapped start indices, the gathers, the scatter-adds, the mean of the
  endpoints, the division by the capped in-degree. Each lemma here identifies one of the kernel's host functions
  with the reference's stage of the same operations, the arrays they are applied to being variables. The one real
  difference is the lookup: the kernel's is checked (a fill word where a wrapped index is out of range), the
  reference's is not; with every index in range the check never fires (`take_eq_rows`).
-/

set_option maxRecDepth 16384

noncomputable section

namespace Cert.Bridge

open Cert.KernelIdeal.Host Cert.ReferenceIdeal.Read
open Idealize.ShloMosaic

variable {F : FTy → Type} [FloatOps F]

/-- Every entry of an index vector, read as a signed integer, is a node number. -/
def InRange (idx : (⟨Cert.KernelIdeal.S500000, .i32⟩ : BufTy).Contents (Elt F)) : Prop :=
  ∀ p, 0 ≤ (idx p).toInt ∧ (idx p).toInt ≤ (49999#32).toInt

/-- With every index a node number, the checked lookup is the plain one. -/
theorem take_eq_rows (x : (⟨Cert.KernelIdeal.S50000x128, .f32⟩ : BufTy).Contents (Elt F)) (idx : (⟨Cert.KernelIdeal.S500000, .i32⟩ : BufTy).Contents (Elt F)) (h : InRange (F := F) idx) :
    take (F := F) x idx = rows (F := F) x idx :=
  Cert.RowLookup.checked_eq_gather 50000#32 49999#32 _ x idx h _ _ _ _ _ _ _ _ _ _

theorem src_eq (x2 : (⟨Cert.KernelIdeal.S2x500000, .i32⟩ : BufTy).Contents (Elt F)) : src (F := F) x2 = val_main_v1 (F := F) x2 := rfl

theorem dst_eq (x2 : (⟨Cert.KernelIdeal.S2x500000, .i32⟩ : BufTy).Contents (Elt F)) : dst (F := F) x2 = val_main_v3 (F := F) x2 := rfl

/-- The endpoint rows of the node features. -/
theorem rows_src (x0 : (⟨Cert.KernelIdeal.S50000x128, .f32⟩ : BufTy).Contents (Elt F)) (x2 : (⟨Cert.KernelIdeal.S2x500000, .i32⟩ : BufTy).Contents (Elt F)) :
    rows (F := F) x0 (src (F := F) x2) = val_main_v10 (F := F) x0 x2 := rfl

theorem rows_dst (x0 : (⟨Cert.KernelIdeal.S50000x128, .f32⟩ : BufTy).Contents (Elt F)) (x2 : (⟨Cert.KernelIdeal.S2x500000, .i32⟩ : BufTy).Contents (Elt F)) :
    rows (F := F) x0 (dst (F := F) x2) = val_main_v17 (F := F) x0 x2 := rfl

/-- The aggregation at the destinations. -/
theorem aggregate_eq (x2 : (⟨Cert.KernelIdeal.S2x500000, .i32⟩ : BufTy).Contents (Elt F)) (u : (⟨Cert.KernelIdeal.S500000x128, .f32⟩ : BufTy).Contents (Elt F)) :
    aggregate (F := F) (dst (F := F) x2) u
      = Host.scatterAdd Cert.ReferenceIdeal.scatter_S50000x128_S500000x1_S500000x128_1_0_0_1 (val_main_v28 (F := F))
          (val_main_v29 (F := F) x2) u := rfl

/-- The mean of the two looked-up endpoint rows of the updated node array `un`. -/
theorem edges_eq (un : (⟨Cert.KernelIdeal.S50000x128, .f32⟩ : BufTy).Contents (Elt F)) (x2 : (⟨Cert.KernelIdeal.S2x500000, .i32⟩ : BufTy).Contents (Elt F)) :
    smoothEdges (F := F) (rows (F := F) un (src (F := F) x2)) (rows (F := F) un (dst (F := F) x2))
      = mulf (val_main_v56 (F := F))
          (addf (Host.gather Cert.ReferenceIdeal.gather_S50000x128_S500000x1_S500000x128_1_0_n_n_0_1_1128 un (val_main_v46 (F := F) x2))
            (Host.gather Cert.ReferenceIdeal.gather_S50000x128_S500000x1_S500000x128_1_0_n_n_0_1_1128 un (val_main_v53 (F := F) x2))) := rfl

/-- The smoothed edge rows `se` aggregated at the destinations and divided by the capped in-degree. -/
theorem nodes_eq (se : (⟨Cert.KernelIdeal.S500000x128, .f32⟩ : BufTy).Contents (Elt F)) (x2 : (⟨Cert.KernelIdeal.S2x500000, .i32⟩ : BufTy).Contents (Elt F)) :
    smoothNodes (F := F) (dst (F := F) x2) se
      = Host.divf (Host.scatterAdd Cert.ReferenceIdeal.scatter_S50000x128_S500000x1_S500000x128_1_0_0_1 (val_main_v62 (F := F))
          (val_main_v63 (F := F) x2) se) (val_main_v67 (F := F) x2) := rfl

end Cert.Bridge

end
-- ==== Proof.Chain.lean ====
import proofs.«423864_j76630806495924_1_alg».proof.Proof.HostKeep
import proofs.«423864_j76630806495924_1_alg».proof.Proof.Region0
import proofs.«423864_j76630806495924_1_alg».proof.Proof.Region1
import proofs.«423864_j76630806495924_1_alg».proof.Proof.RefMlp
import proofs.«423864_j76630806495924_1_alg».proof.Proof.Bridge

/-!
  The kernel's program, boundary by boundary, against the reference's stages.

  The generated frame names the contents of every buffer at each boundary between the program's segments (`W0` at the
  launch, … `W10` at the return). Read from the launch forward, under the hypothesis that every entry of the edge table
  is a node number (`hr`):
  * at the first region's entry the two looked-up endpoint arrays are the reference's gathers (the check never fires),
    the weight slices are slices of the launch contents, the other inputs are the launch contents;
  * the first region leaves the edge network of those arrays, which is the reference's edge stage;
  * the aggregation stretch leaves the reference's aggregated messages;
  * the second region leaves the node network of the node features and the messages: the reference's node stage;
  * the closing stretches leave the reference's two results.
-/

set_option maxRecDepth 16384

noncomputable section

namespace Cert.KernelIdeal.Chain

open Cert.KernelIdeal Cert.KernelIdeal.Gen Cert.KernelIdeal.Host Cert.ReferenceIdeal.Read Cert.Bridge
open Idealize.ShloMosaic Idealize.ShloMosaic.TcCoe Idealize.SL.Sem

/-- Read a buffer back through the host stretches before a boundary. -/
local macro "read_back" : tactic => `(tactic| (after_results_simp <;> (try rfl)))

variable (m : (ℓ : Loc nD τ sig) → Buf (Elt Ideal) ℓ) (ρ : Dev nD → PrngReg) (c : Dev nD)

/-! ## From the launch to the first region's entry -/

theorem W1_arg0 : W1 m ρ c (Proc.devRef .tc main_arg0) = m ((c : Thread nD τ).loc main_arg0) := by read_back
theorem W2_arg0 : W2 m ρ c (Proc.devRef .tc main_arg0) = m ((c : Thread nD τ).loc main_arg0) := by read_back
theorem W1_v1 : W1 m ρ c (Proc.devRef .tc main_v1) = src (F := Ideal) (m ((c : Thread nD τ).loc main_arg2)) := src_stage (W0 m ρ c)
theorem W2_v3 : W2 m ρ c (Proc.devRef .tc main_v3) = dst (F := Ideal) (m ((c : Thread nD τ).loc main_arg2)) := by
  have h : W2 m ρ c (Proc.devRef .tc main_v3) = W1 m ρ c (Proc.devRef .tc main_v3) := by
    show StableHlo.after hostOps0_1 (W1 m ρ c) _ = _
    generalize W1 m ρ c = V
    after_results_simp
  exact h.trans (dst_stage (W0 m ρ c))

theorem W4_arg0 : W4 m ρ c (Proc.devRef .tc main_arg0) = m ((c : Thread nD τ).loc main_arg0) := by read_back
theorem W4_arg1 : W4 m ρ c (Proc.devRef .tc main_arg1) = m ((c : Thread nD τ).loc main_arg1) := by read_back
theorem W4_arg4 : W4 m ρ c (Proc.devRef .tc main_arg4) = m ((c : Thread nD τ).loc main_arg4) := by read_back
theorem W4_arg5 : W4 m ρ c (Proc.devRef .tc main_arg5) = m ((c : Thread nD τ).loc main_arg5) := by read_back
theorem W4_arg6 : W4 m ρ c (Proc.devRef .tc main_arg6) = m ((c : Thread nD τ).loc main_arg6) := by read_back
theorem W4_arg7 : W4 m ρ c (Proc.devRef .tc main_arg7) = m ((c : Thread nD τ).loc main_arg7) := by read_back
theorem W4_arg8 : W4 m ρ c (Proc.devRef .tc main_arg8) = m ((c : Thread nD τ).loc main_arg8) := by read_back
theorem W4_arg9 : W4 m ρ c (Proc.devRef .tc main_arg9) = m ((c : Thread nD τ).loc main_arg9) := by read_back
theorem W4_arg10 : W4 m ρ c (Proc.devRef .tc main_arg10) = m ((c : Thread nD τ).loc main_arg10) := by read_back
theorem W3_arg3 : W3 m ρ c (Proc.devRef .tc main_arg3) = m ((c : Thread nD τ).loc main_arg3) := by read_back

theorem W4_v1 : W4 m ρ c (Proc.devRef .tc main_v1) = src (F := Ideal) (m ((c : Thread nD τ).loc main_arg2)) := by
  have h : W4 m ρ c (Proc.devRef .tc main_v1) = W1 m ρ c (Proc.devRef .tc main_v1) := by
    show StableHlo.after hostOps0_3 (StableHlo.after hostOps0_2 (StableHlo.after hostOps0_1 (W1 m ρ c))) _ = _
    generalize W1 m ρ c = V
    after_results_simp
  exact h.trans (W1_v1 m ρ c)

theorem W4_v3 : W4 m ρ c (Proc.devRef .tc main_v3) = dst (F := Ideal) (m ((c : Thread nD τ).loc main_arg2)) := by
  have h : W4 m ρ c (Proc.devRef .tc main_v3) = W2 m ρ c (Proc.devRef .tc main_v3) := by
    show StableHlo.after hostOps0_3 (StableHlo.after hostOps0_2 (W2 m ρ c)) _ = _
    generalize W2 m ρ c = V
    after_results_simp
  exact h.trans (W2_v3 m ρ c)

theorem W4_v4 : W4 m ρ c (Proc.devRef .tc main_v4)
    = take (F := Ideal) (m ((c : Thread nD τ).loc main_arg0)) (src (F := Ideal) (m ((c : Thread nD τ).loc main_arg2))) := by
  have h : W4 m ρ c (Proc.devRef .tc main_v4) = W2 m ρ c (Proc.devRef .tc main_v4) := by
    show StableHlo.after hostOps0_3 (StableHlo.after hostOps0_2 (W2 m ρ c)) _ = _
    generalize W2 m ρ c = V
    after_results_simp
  refine h.trans ((take_stage_v4 (W1 m ρ c)).trans ?_)
  rw [W1_arg0, W1_v1]

theorem W4_v5 : W4 m ρ c (Proc.devRef .tc main_v5)
    = take (F := Ideal) (m ((c : Thread nD τ).loc main_arg0)) (dst (F := Ideal) (m ((c : Thread nD τ).loc main_arg2))) := by
  have h : W4 m ρ c (Proc.devRef .tc main_v5) = W3 m ρ c (Proc.devRef .tc main_v5) := by
    show StableHlo.after hostOps0_3 (W3 m ρ c) _ = _
    generalize W3 m ρ c = V
    after_results_simp
  refine h.trans ((take_stage_v5 (W2 m ρ c)).trans ?_)
  rw [W2_arg0, W2_v3]

theorem W4_v6 : W4 m ρ c (Proc.devRef .tc main_v6)
    = extractStridedSlice S128x128 ![0, 0] (m ((c : Thread nD τ).loc main_arg3)) slices_S384x128_S128x128_0_0 :=
  (slice_v6 (W3 m ρ c)).trans (by rw [W3_arg3])
theorem W4_v7 : W4 m ρ c (Proc.devRef .tc main_v7)
    = extractStridedSlice S128x128 ![128, 0] (m ((c : Thread nD τ).loc main_arg3)) slices_S384x128_S128x128_128_0 :=
  (slice_v7 (W3 m ρ c)).trans (by rw [W3_arg3])
theorem W4_v8 : W4 m ρ c (Proc.devRef .tc main_v8)
    = extractStridedSlice S128x128 ![256, 0] (m ((c : Thread nD τ).loc main_arg3)) slices_S384x128_S128x128_256_0 :=
  (slice_v8 (W3 m ρ c)).trans (by rw [W3_arg3])

/-! ## The hypothesis on the edge table, as the two index vectors' -/

/-- Every entry of the edge table is a node number. -/
def TableOk : Prop := ∀ i : S2x500000.Idx, 0 ≤ ((m ((c : Thread nD τ).loc main_arg2)) i).toInt ∧ ((m ((c : Thread nD τ).loc main_arg2)) i).toInt < 50000

theorem src_ok (h : TableOk m c) : InRange (F := Ideal) (src (F := Ideal) (m ((c : Thread nD τ).loc main_arg2))) := fun p => by
  have c1 : (49999#32).toInt = 49999 := by decide
  rw [c1]
  have H : ∀ k, 0 ≤ ((m ((c : Thread nD τ).loc main_arg2)) k).toInt ∧ ((m ((c : Thread nD τ).loc main_arg2)) k).toInt ≤ 49999 := fun k =>
    ⟨(h k).1, by have := (h k).2; omega⟩
  exact H _

theorem dst_ok (h : TableOk m c) : InRange (F := Ideal) (dst (F := Ideal) (m ((c : Thread nD τ).loc main_arg2))) := fun p => by
  have c1 : (49999#32).toInt = 49999 := by decide
  rw [c1]
  have H : ∀ k, 0 ≤ ((m ((c : Thread nD τ).loc main_arg2)) k).toInt ∧ ((m ((c : Thread nD τ).loc main_arg2)) k).toInt ≤ 49999 := fun k =>
    ⟨(h k).1, by have := (h k).2; omega⟩
  exact H _

/-! ## The first region leaves the reference's edge stage -/

theorem W5_v9 (h : TableOk m c) : W5 m ρ c (Proc.devRef .tc main_v9) = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W5_arr m ρ c 9).trans (Cert.KernelIdeal.Region0.edge_out (V4 m ρ) c)).trans ?_
  show Cert.Spec.edgeArr (W4 m ρ c (Proc.devRef .tc main_v4)) (W4 m ρ c (Proc.devRef .tc main_v5)) (W4 m ρ c (Proc.devRef .tc main_arg1))
      (W4 m ρ c (Proc.devRef .tc main_v6)) (W4 m ρ c (Proc.devRef .tc main_v7)) (W4 m ρ c (Proc.devRef .tc main_v8))
      (W4 m ρ c (Proc.devRef .tc main_arg4)) (W4 m ρ c (Proc.devRef .tc main_arg5)) (W4 m ρ c (Proc.devRef .tc main_arg6)) = _
  rw [W4_v4, W4_v5, W4_arg1, W4_v6, W4_v7, W4_v8, W4_arg4, W4_arg5, W4_arg6,
    take_eq_rows _ _ (src_ok m c h), take_eq_rows _ _ (dst_ok m c h), rows_src, rows_dst]
  exact (Cert.ReferenceIdeal.Mlp.ref_edge _ _ _ _ _ _ _ _ _ _).symm

/-! ## The aggregation stretch leaves the reference's aggregated messages -/

theorem W5_v3 : W5 m ρ c (Proc.devRef .tc main_v3) = dst (F := Ideal) (m ((c : Thread nD τ).loc main_arg2)) :=
  (W5_of_ne m ρ c main_v3 (by decide)).trans (W4_v3 m ρ c)

theorem W6_v12 (h : TableOk m c) : W6 m ρ c (Proc.devRef .tc main_v12) = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (agg_stage (W5 m ρ c)).trans ?_
  rw [W5_v3, W5_v9 m ρ c h]
  exact aggregate_eq _ _

theorem W6_arg0 : W6 m ρ c (Proc.devRef .tc main_arg0) = m ((c : Thread nD τ).loc main_arg0) :=
  (keep1_arg0 (W5 m ρ c)).trans ((W5_of_ne m ρ c main_arg0 (by decide)).trans (W4_arg0 m ρ c))
theorem W6_arg8 : W6 m ρ c (Proc.devRef .tc main_arg8) = m ((c : Thread nD τ).loc main_arg8) :=
  (keep1_arg8 (W5 m ρ c)).trans ((W5_of_ne m ρ c main_arg8 (by decide)).trans (W4_arg8 m ρ c))
theorem W6_arg9 : W6 m ρ c (Proc.devRef .tc main_arg9) = m ((c : Thread nD τ).loc main_arg9) :=
  (keep1_arg9 (W5 m ρ c)).trans ((W5_of_ne m ρ c main_arg9 (by decide)).trans (W4_arg9 m ρ c))
theorem W6_arg10 : W6 m ρ c (Proc.devRef .tc main_arg10) = m ((c : Thread nD τ).loc main_arg10) :=
  (keep1_arg10 (W5 m ρ c)).trans ((W5_of_ne m ρ c main_arg10 (by decide)).trans (W4_arg10 m ρ c))
theorem W6_v1 : W6 m ρ c (Proc.devRef .tc main_v1) = src (F := Ideal) (m ((c : Thread nD τ).loc main_arg2)) :=
  (keep1_v1 (W5 m ρ c)).trans ((W5_of_ne m ρ c main_v1 (by decide)).trans (W4_v1 m ρ c))
theorem W6_v3 : W6 m ρ c (Proc.devRef .tc main_v3) = dst (F := Ideal) (m ((c : Thread nD τ).loc main_arg2)) :=
  (keep1_v3 (W5 m ρ c)).trans (W5_v3 m ρ c)
theorem W6_v13 : W6 m ρ c (Proc.devRef .tc main_v13)
    = extractStridedSlice S128x128 ![0, 0] (m ((c : Thread nD τ).loc main_arg7)) slices_S256x128_S128x128_0_0 :=
  (slice_v13 (W5 m ρ c)).trans (by rw [W5_of_ne m ρ c main_arg7 (by decide), W4_arg7])
theorem W6_v14 : W6 m ρ c (Proc.devRef .tc main_v14)
    = extractStridedSlice S128x128 ![128, 0] (m ((c : Thread nD τ).loc main_arg7)) slices_S256x128_S128x128_128_0 :=
  (slice_v14 (W5 m ρ c)).trans (by rw [W5_of_ne m ρ c main_arg7 (by decide), W4_arg7])

/-! ## The second region leaves the reference's node stage -/

theorem W7_v15 (h : TableOk m c) : W7 m ρ c (Proc.devRef .tc main_v15) = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W7_arr m ρ c 7).trans (Cert.KernelIdeal.Region1.node_out (V6 m ρ) c)).trans ?_
  show Cert.Spec.nodeArr (W6 m ρ c (Proc.devRef .tc main_arg0)) (W6 m ρ c (Proc.devRef .tc main_v12)) (W6 m ρ c (Proc.devRef .tc main_v13))
      (W6 m ρ c (Proc.devRef .tc main_v14)) (W6 m ρ c (Proc.devRef .tc main_arg8)) (W6 m ρ c (Proc.devRef .tc main_arg9))
      (W6 m ρ c (Proc.devRef .tc main_arg10)) = _
  rw [W6_arg0, W6_v12 m ρ c h, W6_v13, W6_v14, W6_arg8, W6_arg9, W6_arg10]
  exact (Cert.ReferenceIdeal.Mlp.ref_node _ _ _ _ _ _ _ _ _ _ _ _ _).symm

theorem W7_v1 : W7 m ρ c (Proc.devRef .tc main_v1) = src (F := Ideal) (m ((c : Thread nD τ).loc main_arg2)) :=
  (W7_of_ne m ρ c main_v1 (by decide)).trans (W6_v1 m ρ c)
theorem W7_v3 : W7 m ρ c (Proc.devRef .tc main_v3) = dst (F := Ideal) (m ((c : Thread nD τ).loc main_arg2)) :=
  (W7_of_ne m ρ c main_v3 (by decide)).trans (W6_v3 m ρ c)

/-! ## The closing stretches leave the reference's two results -/

/-- The smoothed edge features. -/
theorem W10_v20 (h : TableOk m c) : W10 m ρ c (Proc.devRef .tc main_v20) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (tail_edges (W7 m ρ c)).trans ?_
  rw [W7_v15 m ρ c h, W7_v1, W7_v3, take_eq_rows _ _ (src_ok m c h), take_eq_rows _ _ (dst_ok m c h)]
  exact edges_eq _ _

/-- The smoothed node features. -/
theorem W10_v31 (h : TableOk m c) : W10 m ρ c (Proc.devRef .tc main_v31) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (tail_nodes (W7 m ρ c)).trans ?_
  rw [W7_v15 m ρ c h, W7_v1, W7_v3, take_eq_rows _ _ (src_ok m c h), take_eq_rows _ _ (dst_ok m c h)]
  exact nodes_eq _ _

end Cert.KernelIdeal.Chain

end
-- ==== Proof.lean ====
/-
  The message-passing block computed with two Pallas kernels equals its jnp reference over the extended reals, for
  finite float inputs and an edge table whose entries are node numbers.

  The block gathers the two endpoint feature rows of every edge, runs an edge network (two dense layers) on the
  concatenation of the endpoint rows and the edge's own features, adds the results into their destination nodes, runs a
  node network on the concatenation of the node's features and its aggregated messages, and finally smooths: every
  edge takes the mean of its endpoints' updated features, every node the mean over its incoming edges.

  The kernel's program differs from the reference in three ways, none of which changes a value at the ideal
  instance under the precondition:
  * its lookups are checked (`jnp.take`: a fill word for an out-of-range index) where the reference's are plain
    gathers; with every entry of the edge table in `[0, 50000)` the check never fires;
  * it never forms the concatenations: the product of a concatenation with the first weight matrix is the sum of the
    products of each block with the matching 128 rows of that matrix, a regrouping of one finite sum;
  * it computes each network in row blocks on a grid and narrows the operands of its matrix products to bf16, which is
    the identity on extended reals; each row of a network's output depends on the same row of its inputs only, so the
    blocks assemble to the network of the whole arrays.
  Everything else (the edge table's rows, the scatter-adds, the mean, the division by the capped in-degree) is the
  same chain of host operations in both programs.

  The frames of the two kernel programs are the generated ones; the reference's is its generated run with the results
  dropped; the idealization rewrote nothing, so `preserves` is trivial. For `algebraic`, the kernel's run is read at its
  two result buffers (Proof/KernelRun.lean), those buffers' final contents are identified with the reference's stages
  boundary by boundary (Proof/Chain.lean), and the reference's run ends at those stages (its generated run and read
  modules).
-/
import proofs.«423864_j76630806495924_1_alg».proof.Defs
import proofs.«423864_j76630806495924_1_alg».proof.Proof.Gen.Kernel
import proofs.«423864_j76630806495924_1_alg».proof.Proof.Gen.Kernel.Skeleton
import proofs.«423864_j76630806495924_1_alg».proof.Proof.Gen.Kernel.Launch
import proofs.«423864_j76630806495924_1_alg».proof.Proof.Gen.Kernel.Points
import proofs.«423864_j76630806495924_1_alg».proof.Proof.Gen.Kernel.Frame
import proofs.«423864_j76630806495924_1_alg».proof.Proof.Gen.KernelIdeal
import proofs.«423864_j76630806495924_1_alg».proof.Proof.Gen.KernelIdeal.Skeleton
import proofs.«423864_j76630806495924_1_alg».proof.Proof.Gen.KernelIdeal.Launch
import proofs.«423864_j76630806495924_1_alg».proof.Proof.Gen.KernelIdeal.Points
import proofs.«423864_j76630806495924_1_alg».proof.Proof.Gen.KernelIdeal.Frame
import proofs.«423864_j76630806495924_1_alg».proof.Proof.Gen.ReferenceIdeal
import proofs.«423864_j76630806495924_1_alg».proof.Proof.Gen.ReferenceIdeal.Run
import proofs.«423864_j76630806495924_1_alg».proof.Proof.Gen.ReferenceIdeal.Read
import proofs.«423864_j76630806495924_1_alg».proof.Proof.Gen.Pre_finite_inputs
import proofs.«423864_j76630806495924_1_alg».proof.Proof.KernelRun
import proofs.«423864_j76630806495924_1_alg».proof.Proof.PreDecode
import proofs.«423864_j76630806495924_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the same two result arrays: the kernel's result buffers hold the last boundary's contents,
    which are the reference's last two stages of the kernel's own arguments; the reference's run ends at those stages of
    its arguments, which agree with the kernel's. -/
theorem algebraic : Cert.algebraic_KernelIdeal_ReferenceIdeal := by
  intro m ρ m' ρ' hpre hagree
  have hok : ∀ c, Cert.KernelIdeal.Chain.TableOk m c := fun c i =>
    Cert.Pre_finite_inputs.Decode.table_in_range _ _ _ _ _ _ _ _ _ _ _ (hpre c) i
  refine ⟨fun c => Cert.KernelIdeal.Gen.W10 m ρ c (Proc.devRef .tc Cert.KernelIdeal.main_v31),
    fun c => Cert.KernelIdeal.Gen.W10 m ρ c (Proc.devRef .tc Cert.KernelIdeal.main_v20),
    Cert.KernelIdeal.Results.run m ρ, ?_⟩
  refine (θ_run Cert.ReferenceIdeal.defs _ _).mono (fun r h c => ?_) (Cert.ReferenceIdeal.Value.run (F := Ideal) m' ρ')
  obtain ⟨h68, h57, hargs⟩ := h c
  obtain ⟨a0, a1, a2, a3, a4, a5, a6, a7, a8, a9, a10⟩ := hagree c
  refine ⟨h68.trans ?_, h57.trans ?_, hargs⟩
  · rw [Cert.ReferenceIdeal.Read.val_main_v68_eq, a0, a1, a2, a3, a4, a5, a6, a7, a8, a9, a10]
    exact (Cert.KernelIdeal.Chain.W10_v31 m ρ c (hok c)).symm
  · rw [Cert.ReferenceIdeal.Read.val_main_v57_eq, a0, a1, a2, a3, a4, a5, a6, a7, a8, a9, a10]
    exact (Cert.KernelIdeal.Chain.W10_v20 m ρ c (hok c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
